-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x16x2048x768 : Shape := ⟨4, ![3, 16, 2048, 768]⟩
abbrev S16x2048 : Shape := ⟨2, ![16, 2048]⟩
abbrev S5x2048 : Shape := ⟨2, ![5, 2048]⟩
abbrev S2048x5 : Shape := ⟨2, ![2048, 5]⟩
abbrev S_ : Shape := ⟨0, ![]⟩

class Facts : Prop where
  bcast_S_S3x16x2048x768 : S_.BroadcastsInDim S3x16x2048x768 (![] : Fin 0 → Fin S3x16x2048x768.rank)
  reducesTo_S3x16x2048x768_S_d0_1_2_3 : S3x16x2048x768.ReducesTo [0, 1, 2, 3] S_
  h_S_ : 0 < S_.numel
  bcast_S_S5x2048 : S_.BroadcastsInDim S5x2048 (![] : Fin 0 → Fin S5x2048.rank)
  reducesTo_S5x2048_S_d0_1 : S5x2048.ReducesTo [0, 1] S_
  bcast_S_S2048x5 : S_.BroadcastsInDim S2048x5 (![] : Fin 0 → Fin S2048x5.rank)
  reducesTo_S2048x5_S_d0_1 : S2048x5.ReducesTo [0, 1] S_

variable [Facts]

def fn {F : FTy → Type} [FloatOps F] (main_arg0 : FVec F S3x16x2048x768 .f32) (main_arg1 : IVec S16x2048 32) (main_arg2 : FVec F S5x2048 .f32) (main_arg3 : FVec F S2048x5 .f32) : IVec S_ 1 :=
  let main_v0 : FVec F S3x16x2048x768 .f32 := Host.absf main_arg0
  let main_cst : FVec F S_ .f32 := constant S_ .f32 0x7F800000#32
  let main_v1 : FVec F S3x16x2048x768 .f32 := broadcastInDim S3x16x2048x768 ![] bcast_S_S3x16x2048x768 main_cst
  let main_v2 : IVec S3x16x2048x768 1 := cmpf .olt main_v0 main_v1
  let main_c : IVec S_ 1 := constantI S_ 1 1#1
  let main_v3 : IVec S_ 1 := (fun x v => Host.reduce IntOp.andi x v reducesTo_S3x16x2048x768_S_d0_1_2_3 h_S_) main_v2 main_c
  let main_v4 : FVec F S5x2048 .f32 := Host.absf main_arg2
  let main_cst_0 : FVec F S_ .f32 := constant S_ .f32 0x7F800000#32
  let main_v5 : FVec F S5x2048 .f32 := broadcastInDim S5x2048 ![] bcast_S_S5x2048 main_cst_0
  let main_v6 : IVec S5x2048 1 := cmpf .olt main_v4 main_v5
  let main_c_1 : IVec S_ 1 := constantI S_ 1 1#1
  let main_v7 : IVec S_ 1 := (fun x v => Host.reduce IntOp.andi x v reducesTo_S5x2048_S_d0_1 h_S_) main_v6 main_c_1
  let main_v8 : IVec S_ 1 := andi main_v3 main_v7
  let main_v9 : FVec F S2048x5 .f32 := Host.absf main_arg3
  let main_cst_2 : FVec F S_ .f32 := constant S_ .f32 0x7F800000#32
  let main_v10 : FVec F S2048x5 .f32 := broadcastInDim S2048x5 ![] bcast_S_S2048x5 main_cst_2
  let main_v11 : IVec S2048x5 1 := cmpf .olt main_v9 main_v10
  let main_c_3 : IVec S_ 1 := constantI S_ 1 1#1
  let main_v12 : IVec S_ 1 := (fun x v => Host.reduce IntOp.andi x v reducesTo_S2048x5_S_d0_1 h_S_) main_v11 main_c_3
  let main_v13 : IVec S_ 1 := andi main_v8 main_v12
  main_v13
-- ==== Kernel.lean ====
abbrev S3x16x2048x768 : Shape := ⟨4, ![3, 16, 2048, 768]⟩
abbrev S16x2048 : Shape := ⟨2, ![16, 2048]⟩
abbrev S5x2048 : Shape := ⟨2, ![5, 2048]⟩
abbrev S2048x5 : Shape := ⟨2, ![2048, 5]⟩
abbrev S1x16x2048x768 : Shape := ⟨4, ![1, 16, 2048, 768]⟩
abbrev S16x2048x768 : Shape := ⟨3, ![16, 2048, 768]⟩
abbrev S_ : Shape := ⟨0, ![]⟩
abbrev S16x2048x1 : Shape := ⟨3, ![16, 2048, 1]⟩
abbrev S2048 : Shape := ⟨1, ![2048]⟩
abbrev S2048x1 : Shape := ⟨2, ![2048, 1]⟩
abbrev S16x5x2048 : Shape := ⟨3, ![16, 5, 2048]⟩
abbrev S1x2048x768 : Shape := ⟨3, ![1, 2048, 768]⟩
abbrev S1x2048x1 : Shape := ⟨3, ![1, 2048, 1]⟩
abbrev S1x5x2048 : Shape := ⟨3, ![1, 5, 2048]⟩
abbrev S2048x768 : Shape := ⟨2, ![2048, 768]⟩
abbrev S768 : Shape := ⟨1, ![768]⟩
abbrev S1x768 : Shape := ⟨2, ![1, 768]⟩
abbrev S1x2048 : Shape := ⟨2, ![1, 2048]⟩
abbrev S5 : Shape := ⟨1, ![5]⟩
abbrev S5x1 : Shape := ⟨2, ![5, 1]⟩
abbrev S5x768 : Shape := ⟨2, ![5, 768]⟩

abbrev nBuf : Space → Nat
  | .hbm => 31
  | .vmem => 16
  | .smem => 0
  | _ => 0

abbrev bufTy : (tb : Table) → Fin (tcTables nBuf tb) → BufTy
  | .hbm, ⟨0, _⟩ => ⟨S3x16x2048x768, .f32⟩
  | .hbm, ⟨1, _⟩ => ⟨S16x2048, .i32⟩
  | .hbm, ⟨2, _⟩ => ⟨S5x2048, .f32⟩
  | .hbm, ⟨3, _⟩ => ⟨S2048x5, .f32⟩
  | .hbm, ⟨4, _⟩ => ⟨S1x16x2048x768, .f32⟩
  | .hbm, ⟨5, _⟩ => ⟨S16x2048x768, .f32⟩
  | .hbm, ⟨6, _⟩ => ⟨S1x16x2048x768, .f32⟩
  | .hbm, ⟨7, _⟩ => ⟨S16x2048x768, .f32⟩
  | .hbm, ⟨8, _⟩ => ⟨S1x16x2048x768, .f32⟩
  | .hbm, ⟨9, _⟩ => ⟨S16x2048x768, .f32⟩
  | .hbm, ⟨10, _⟩ => ⟨S_, .i32⟩
  | .hbm, ⟨11, _⟩ => ⟨S16x2048, .i32⟩
  | .hbm, ⟨12, _⟩ => ⟨S16x2048, .i1⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .f32⟩
  | .hbm, ⟨20, _⟩ => ⟨S2048x1, .f32⟩
  | .hbm, ⟨21, _⟩ => ⟨S2048x5, .f32⟩
  | .hbm, ⟨22, _⟩ => ⟨S2048x5, .f32⟩
  | .hbm, ⟨23, _⟩ => ⟨S2048x5, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S2048x5, .f32⟩
  | .hbm, ⟨28, _⟩ => ⟨S2048x5, .f32⟩
  | .hbm, ⟨29, _⟩ => ⟨S16x5x2048, .f32⟩
  | .hbm, ⟨30, _⟩ => ⟨S16x2048x768, .f32⟩
  | .local _ .vmem, ⟨0, _⟩ => ⟨S1x2048x768, .f32⟩
  | .local _ .vmem, ⟨1, _⟩ => ⟨S1x2048x768, .f32⟩
  | .local _ .vmem, ⟨2, _⟩ => ⟨S1x2048x768, .f32⟩
  | .local _ .vmem, ⟨3, _⟩ => ⟨S1x2048x768, .f32⟩
  | .local _ .vmem, ⟨4, _⟩ => ⟨S1x2048x1, .f32⟩
  | .local _ .vmem, ⟨5, _⟩ => ⟨S1x2048x1, .f32⟩
  | .local _ .vmem, ⟨6, _⟩ => ⟨S5x2048, .f32⟩
  | .local _ .vmem, ⟨7, _⟩ => ⟨S1x5x2048, .f32⟩
  | .local _ .vmem, ⟨8, _⟩ => ⟨S1x5x2048, .f32⟩
  | .local _ .vmem, ⟨9, _⟩ => ⟨S1x2048x768, .f32⟩
  | .local _ .vmem, ⟨10, _⟩ => ⟨S1x2048x768, .f32⟩
  | .local _ .vmem, ⟨11, _⟩ => ⟨S1x5x2048, .f32⟩
  | .local _ .vmem, ⟨12, _⟩ => ⟨S1x5x2048, .f32⟩
  | .local _ .vmem, ⟨13, _⟩ => ⟨S2048x5, .f32⟩
  | .local _ .vmem, ⟨14, _⟩ => ⟨S1x2048x768, .f32⟩
  | .local _ .vmem, ⟨15, _⟩ => ⟨S1x2048x768, .f32⟩
  | _, _ => ⟨S3x16x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x5x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x5x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x2048x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S3x16x2048x768_S1x16x2048x768_0_0_0_0 : S3x16x2048x768.Slices ![0, 0, 0, 0] S1x16x2048x768
  shapeCasts_S1x16x2048x768_S16x2048x768 : S1x16x2048x768.ShapeCasts S16x2048x768
  slices_S3x16x2048x768_S1x16x2048x768_1_0_0_0 : S3x16x2048x768.Slices ![1, 0, 0, 0] S1x16x2048x768
  slices_S3x16x2048x768_S1x16x2048x768_2_0_0_0 : S3x16x2048x768.Slices ![2, 0, 0, 0] S1x16x2048x768
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  reducesTo_S2048x5_S2048_d1 : S2048x5.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x5_0_1 : S2048x1.BroadcastsInDim S2048x5 (![0, 1] : Fin 2 → Fin S2048x5.rank)
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S5x2048_S5x2048_0_0 : ∀ a, (![0, 0] : Fin 2 → Nat) a + S5x2048.size a ≤ S5x2048.size a
  h_S5x2048 : 0 < S5x2048.numel
  broadcasts_S2048x1_S2048x768 : S2048x1.Broadcasts S2048x768
  reduces_S2048x768_S768 : S2048x768.Reduces [0] S768
  shapeCasts_S768_S1x768 : S768.ShapeCasts S1x768
  bitsLt_bf16_f32 : FTy.bits .bf16 < FTy.bits .f32
  broadcasts_S1x2048_S5x2048 : S1x2048.Broadcasts S5x2048
  reduces_S5x2048_S5 : S5x2048.Reduces [1] S5
  shapeCasts_S5_S5x1 : S5.ShapeCasts S5x1
  broadcasts_S5x1_S5x2048 : S5x1.Broadcasts S5x2048
  inb_S1x5x2048_S1x5x2048_0_0_0 : ∀ a, (![0, 0, 0] : Fin 3 → Nat) a + S1x5x2048.size a ≤ S1x5x2048.size a
  h_S1x5x2048 : 0 < S1x5x2048.numel
  shapeCasts_S1x5x2048_S5x2048 : S1x5x2048.ShapeCasts S5x2048
  shapeCasts_S5x2048_S1x5x2048 : S5x2048.ShapeCasts S1x5x2048
  inb_S2048x5_S2048x5_0_0 : ∀ a, (![0, 0] : Fin 2 → Nat) a + S2048x5.size a ≤ S2048x5.size a
  h_S2048x5 : 0 < S2048x5.numel
  shapeCasts_S2048x5_S2048x5 : S2048x5.ShapeCasts S2048x5
  shapeCasts_S2048x768_S1x2048x768 : S2048x768.ShapeCasts S1x2048x768
  dot_S1x768_S2048x768_S1x2048_1_1_0_0_n_n_wf : DotDims.WF S1x768 S2048x768 S1x2048 [1] [1] [0] [0] [] []
  dot_S5x2048_S2048x768_S5x768_1_0_0_1_n_n_wf : DotDims.WF S5x2048 S2048x768 S5x768 [1] [0] [0] [1] [] []
  dot_S2048x5_S5x768_S2048x768_1_0_0_1_n_n_wf : DotDims.WF S2048x5 S5x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S16x2048x768.size a
  hwx0_0 : ∀ i : grid0.Coords, EltTy.bits .f32 = 32 ∨ (Rect.block (s := S16x2048x768) S1x2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x768.size a ≤ S16x2048x768.size a
  hwx0_1 : ∀ i : grid0.Coords, EltTy.bits .f32 = 32 ∨ (Rect.block (s := S16x2048x768) S1x2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S16x2048x1.size a
  hwx0_2 : ∀ i : grid0.Coords, EltTy.bits .f32 = 32 ∨ (Rect.block (s := S16x2048x1) S1x2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x2048.size a ≤ S5x2048.size a
  hwx0_3 : ∀ i : grid0.Coords, EltTy.bits .f32 = 32 ∨ (Rect.block (s := S5x2048) S5x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5x2048.size a ≤ S16x5x2048.size a
  hwx0_4 : ∀ i : grid0.Coords, EltTy.bits .f32 = 32 ∨ (Rect.block (s := S16x5x2048) S1x5x2048.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x768.size a ≤ S16x2048x768.size a
  hwx1_0 : ∀ i : grid1.Coords, EltTy.bits .f32 = 32 ∨ (Rect.block (s := S16x2048x768) S1x2048x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x5x2048.size a ≤ S16x5x2048.size a
  hwx1_1 : ∀ i : grid1.Coords, EltTy.bits .f32 = 32 ∨ (Rect.block (s := S16x5x2048) S1x5x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x5.size a ≤ S2048x5.size a
  hwx1_2 : ∀ i : grid1.Coords, EltTy.bits .f32 = 32 ∨ (Rect.block (s := S2048x5) S2048x5.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x768.size a ≤ S16x2048x768.size a
  hwx1_3 : ∀ i : grid1.Coords, EltTy.bits .f32 = 32 ∨ (Rect.block (s := S16x2048x768) S1x2048x768.size (cc1_transform_3 i) (hinb1_3 i)).WholeWords (EltTy.packing .f32)

variable [Facts₀]

def dot_S1x768_S2048x768_S1x2048_1_1_0_0_n_n : DotDims S1x768 S2048x768 S1x2048 where
  lhsContracting := [1]
  rhsContracting := [1]
  lhsNonContracting := [0]
  rhsNonContracting := [0]
  lhsBatch := []
  rhsBatch := []
  wf := dot_S1x768_S2048x768_S1x2048_1_1_0_0_n_n_wf
def dot_S5x2048_S2048x768_S5x768_1_0_0_1_n_n : DotDims S5x2048 S2048x768 S5x768 where
  lhsContracting := [1]
  rhsContracting := [0]
  lhsNonContracting := [0]
  rhsNonContracting := [1]
  lhsBatch := []
  rhsBatch := []
  wf := dot_S5x2048_S2048x768_S5x768_1_0_0_1_n_n_wf
def dot_S2048x5_S5x768_S2048x768_1_0_0_1_n_n : DotDims S2048x5 S5x768 S2048x768 where
  lhsContracting := [1]
  rhsContracting := [0]
  lhsNonContracting := [0]
  rhsNonContracting := [1]
  lhsBatch := []
  rhsBatch := []
  wf := dot_S2048x5_S5x768_S2048x768_1_0_0_1_n_n_wf

abbrev win0_0 : Pipeline.Window sig grid0 :=
  Pipeline.Window.ofSpec (Memref.whole main_v1) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S5x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x5x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S1x2048x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x5x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2048x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x2048x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S3x16x2048x768 : Shape := ⟨4, ![3, 16, 2048, 768]⟩
abbrev S16x2048 : Shape := ⟨2, ![16, 2048]⟩
abbrev S5x2048 : Shape := ⟨2, ![5, 2048]⟩
abbrev S2048x5 : Shape := ⟨2, ![2048, 5]⟩
abbrev S1x16x2048x768 : Shape := ⟨4, ![1, 16, 2048, 768]⟩
abbrev S16x2048x768 : Shape := ⟨3, ![16, 2048, 768]⟩
abbrev S_ : Shape := ⟨0, ![]⟩
abbrev S16x2048x1 : Shape := ⟨3, ![16, 2048, 1]⟩
abbrev S16x768 : Shape := ⟨2, ![16, 768]⟩
abbrev S16x1x768 : Shape := ⟨3, ![16, 1, 768]⟩
abbrev S16x5x768 : Shape := ⟨3, ![16, 5, 768]⟩
abbrev S16x5x2048 : Shape := ⟨3, ![16, 5, 2048]⟩
abbrev S1x5x2048 : Shape := ⟨3, ![1, 5, 2048]⟩
abbrev S16x5 : Shape := ⟨2, ![16, 5]⟩
abbrev S16x5x1 : Shape := ⟨3, ![16, 5, 1]⟩
abbrev S16x2048x5 : Shape := ⟨3, ![16, 2048, 5]⟩
abbrev S1x2048x5 : Shape := ⟨3, ![1, 2048, 5]⟩

abbrev nBuf : Space → Nat
  | .hbm => 63
  | .vmem => 0
  | .smem => 0
  | _ => 0

abbrev bufTy : (tb : Table) → Fin (tcTables nBuf tb) → BufTy
  | .hbm, ⟨0, _⟩ => ⟨S3x16x2048x768, .f32⟩
  | .hbm, ⟨1, _⟩ => ⟨S16x2048, .i32⟩
  | .hbm, ⟨2, _⟩ => ⟨S5x2048, .f32⟩
  | .hbm, ⟨3, _⟩ => ⟨S2048x5, .f32⟩
  | .hbm, ⟨4, _⟩ => ⟨S1x16x2048x768, .f32⟩
  | .hbm, ⟨5, _⟩ => ⟨S16x2048x768, .f32⟩
  | .hbm, ⟨6, _⟩ => ⟨S1x16x2048x768, .f32⟩
  | .hbm, ⟨7, _⟩ => ⟨S16x2048x768, .f32⟩
  | .hbm, ⟨8, _⟩ => ⟨S1x16x2048x768, .f32⟩
  | .hbm, ⟨9, _⟩ => ⟨S16x2048x768, .f32⟩
  | .hbm, ⟨10, _⟩ => ⟨S_, .i32⟩
  | .hbm, ⟨11, _⟩ => ⟨S16x2048, .i32⟩
  | .hbm, ⟨12, _⟩ => ⟨S16x2048, .i1⟩
  | .hbm, ⟨13, _⟩ => ⟨S16x2048x1, .i1⟩
  | .hbm, ⟨14, _⟩ => ⟨S_, .f32⟩
  | .hbm, ⟨15, _⟩ => ⟨S16x2048x768, .i1⟩
  | .hbm, ⟨16, _⟩ => ⟨S16x2048x768, .f32⟩
  | .hbm, ⟨17, _⟩ => ⟨S16x2048x768, .f32⟩
  | .hbm, ⟨18, _⟩ => ⟨S_, .f32⟩
  | .hbm, ⟨19, _⟩ => ⟨S16x768, .f32⟩
  | .hbm, ⟨20, _⟩ => ⟨S16x1x768, .f32⟩
  | .hbm, ⟨21, _⟩ => ⟨S_, .f32⟩
  | .hbm, ⟨22, _⟩ => ⟨S16x1x768, .f32⟩
  | .hbm, ⟨23, _⟩ => ⟨S16x1x768, .f32⟩
  | .hbm, ⟨24, _⟩ => ⟨S16x5x768, .f32⟩
  | .hbm, ⟨25, _⟩ => ⟨S16x5x2048, .f32⟩
  | .hbm, ⟨26, _⟩ => ⟨S1x5x2048, .f32⟩
  | .hbm, ⟨27, _⟩ => ⟨S16x5x2048, .f32⟩
  | .hbm, ⟨28, _⟩ => ⟨S16x5x2048, .f32⟩
  | .hbm, ⟨29, _⟩ => ⟨S_, .f32⟩
  | .hbm, ⟨30, _⟩ => ⟨S16x5, .f32⟩
  | .hbm, ⟨31, _⟩ => ⟨S_, .f32⟩
  | .hbm, ⟨32, _⟩ => ⟨S16x5, .f32⟩
  | .hbm, ⟨33, _⟩ => ⟨S16x5, .f32⟩
  | .hbm, ⟨34, _⟩ => ⟨S16x5x1, .f32⟩
  | .hbm, ⟨35, _⟩ => ⟨S16x5x2048, .f32⟩
  | .hbm, ⟨36, _⟩ => ⟨S16x5x2048, .f32⟩
  | .hbm, ⟨37, _⟩ => ⟨S16x5x2048, .f32⟩
  | .hbm, ⟨38, _⟩ => ⟨S_, .f32⟩
  | .hbm, ⟨39, _⟩ => ⟨S16x5, .f32⟩
  | .hbm, ⟨40, _⟩ => ⟨S16x5x1, .f32⟩
  | .hbm, ⟨41, _⟩ => ⟨S16x5x2048, .f32⟩
  | .hbm, ⟨42, _⟩ => ⟨S16x5x2048, .f32⟩
  | .hbm, ⟨43, _⟩ => ⟨S16x5x768, .f32⟩
  | .hbm, ⟨44, _⟩ => ⟨S16x2048x5, .f32⟩
  | .hbm, ⟨45, _⟩ => ⟨S1x2048x5, .f32⟩
  | .hbm, ⟨46, _⟩ => ⟨S16x2048x5, .f32⟩
  | .hbm, ⟨47, _⟩ => ⟨S16x2048x5, .f32⟩
  | .hbm, ⟨48, _⟩ => ⟨S_, .f32⟩
  | .hbm, ⟨49, _⟩ => ⟨S16x2048, .f32⟩
  | .hbm, ⟨50, _⟩ => ⟨S_, .f32⟩
  | .hbm, ⟨51, _⟩ => ⟨S16x2048, .f32⟩
  | .hbm, ⟨52, _⟩ => ⟨S16x2048, .f32⟩
  | .hbm, ⟨53, _⟩ => ⟨S16x2048x1, .f32⟩
  | .hbm, ⟨54, _⟩ => ⟨S16x2048x5, .f32⟩
  | .hbm, ⟨55, _⟩ => ⟨S16x2048x5, .f32⟩
  | .hbm, ⟨56, _⟩ => ⟨S16x2048x5, .f32⟩
  | .hbm, ⟨57, _⟩ => ⟨S_, .f32⟩
  | .hbm, ⟨58, _⟩ => ⟨S16x2048, .f32⟩
  | .hbm, ⟨59, _⟩ => ⟨S16x2048x1, .f32⟩
  | .hbm, ⟨60, _⟩ => ⟨S16x2048x5, .f32⟩
  | .hbm, ⟨61, _⟩ => ⟨S16x2048x5, .f32⟩
  | .hbm, ⟨62, _⟩ => ⟨S16x2048x768, .f32⟩
  | _, _ => ⟨S3x16x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]

class Facts₀ : Prop where
  slices_S3x16x2048x768_S1x16x2048x768_0_0_0_0 : S3x16x2048x768.Slices ![0, 0, 0, 0] S1x16x2048x768
  shapeCasts_S1x16x2048x768_S16x2048x768 : S1x16x2048x768.ShapeCasts S16x2048x768
  slices_S3x16x2048x768_S1x16x2048x768_1_0_0_0 : S3x16x2048x768.Slices ![1, 0, 0, 0] S1x16x2048x768
  slices_S3x16x2048x768_S1x16x2048x768_2_0_0_0 : S3x16x2048x768.Slices ![2, 0, 0, 0] S1x16x2048x768
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x768_0_1_2 : S16x2048x1.BroadcastsInDim S16x2048x768 (![0, 1, 2] : Fin 3 → Fin S16x2048x768.rank)
  bcast_S_S16x2048x768 : S_.BroadcastsInDim S16x2048x768 (![] : Fin 0 → Fin S16x2048x768.rank)
  reducesTo_S16x2048x768_S16x768_d1 : S16x2048x768.ReducesTo [1] S16x768
  h_S_ : 0 < S_.numel
  bcast_S16x768_S16x1x768_0_2 : S16x768.BroadcastsInDim S16x1x768 (![0, 2] : Fin 2 → Fin S16x1x768.rank)
  bcast_S_S16x1x768 : S_.BroadcastsInDim S16x1x768 (![] : Fin 0 → Fin S16x1x768.rank)
  bcast_S16x1x768_S16x5x768_0_1_2 : S16x1x768.BroadcastsInDim S16x5x768 (![0, 1, 2] : Fin 3 → Fin S16x5x768.rank)
  bcast_S5x2048_S1x5x2048_1_2 : S5x2048.BroadcastsInDim S1x5x2048 (![1, 2] : Fin 2 → Fin S1x5x2048.rank)
  bcast_S1x5x2048_S16x5x2048_0_1_2 : S1x5x2048.BroadcastsInDim S16x5x2048 (![0, 1, 2] : Fin 3 → Fin S16x5x2048.rank)
  reducesTo_S16x5x2048_S16x5_d2 : S16x5x2048.ReducesTo [2] S16x5
  bcast_S_S16x5 : S_.BroadcastsInDim S16x5 (![] : Fin 0 → Fin S16x5.rank)
  bcast_S16x5_S16x5x1_0_1 : S16x5.BroadcastsInDim S16x5x1 (![0, 1] : Fin 2 → Fin S16x5x1.rank)
  bcast_S16x5x1_S16x5x2048_0_1_2 : S16x5x1.BroadcastsInDim S16x5x2048 (![0, 1, 2] : Fin 3 → Fin S16x5x2048.rank)
  bcast_S2048x5_S1x2048x5_1_2 : S2048x5.BroadcastsInDim S1x2048x5 (![1, 2] : Fin 2 → Fin S1x2048x5.rank)
  bcast_S1x2048x5_S16x2048x5_0_1_2 : S1x2048x5.BroadcastsInDim S16x2048x5 (![0, 1, 2] : Fin 3 → Fin S16x2048x5.rank)
  reducesTo_S16x2048x5_S16x2048_d2 : S16x2048x5.ReducesTo [2] S16x2048
  bcast_S16x2048x1_S16x2048x5_0_1_2 : S16x2048x1.BroadcastsInDim S16x2048x5 (![0, 1, 2] : Fin 3 → Fin S16x2048x5.rank)
  dot_S16x5x768_S16x2048x768_S16x5x2048_2_2_1_1_0_0_wf : DotDims.WF S16x5x768 S16x2048x768 S16x5x2048 [2] [2] [1] [1] [0] [0]
  dot_S16x5x2048_S16x2048x768_S16x5x768_2_1_1_2_0_0_wf : DotDims.WF S16x5x2048 S16x2048x768 S16x5x768 [2] [1] [1] [2] [0] [0]
  dot_S16x2048x768_S16x5x768_S16x2048x5_2_2_1_1_0_0_wf : DotDims.WF S16x2048x768 S16x5x768 S16x2048x5 [2] [2] [1] [1] [0] [0]
  dot_S16x2048x5_S16x5x768_S16x2048x768_2_1_1_2_0_0_wf : DotDims.WF S16x2048x5 S16x5x768 S16x2048x768 [2] [1] [1] [2] [0] [0]

variable [Facts₀]

def dot_S16x5x768_S16x2048x768_S16x5x2048_2_2_1_1_0_0 : DotDims S16x5x768 S16x2048x768 S16x5x2048 where
  lhsContracting := [2]
  rhsContracting := [2]
  lhsNonContracting := [1]
  rhsNonContracting := [1]
  lhsBatch := [0]
  rhsBatch := [0]
  wf := dot_S16x5x768_S16x2048x768_S16x5x2048_2_2_1_1_0_0_wf
def dot_S16x5x2048_S16x2048x768_S16x5x768_2_1_1_2_0_0 : DotDims S16x5x2048 S16x2048x768 S16x5x768 where
  lhsContracting := [2]
  rhsContracting := [1]
  lhsNonContracting := [1]
  rhsNonContracting := [2]
  lhsBatch := [0]
  rhsBatch := [0]
  wf := dot_S16x5x2048_S16x2048x768_S16x5x768_2_1_1_2_0_0_wf
def dot_S16x2048x768_S16x5x768_S16x2048x5_2_2_1_1_0_0 : DotDims S16x2048x768 S16x5x768 S16x2048x5 where
  lhsContracting := [2]
  rhsContracting := [2]
  lhsNonContracting := [1]
  rhsNonContracting := [1]
  lhsBatch := [0]
  rhsBatch := [0]
  wf := dot_S16x2048x768_S16x5x768_S16x2048x5_2_2_1_1_0_0_wf
def dot_S16x2048x5_S16x5x768_S16x2048x768_2_1_1_2_0_0 : DotDims S16x2048x5 S16x5x768 S16x2048x768 where
  lhsContracting := [2]
  rhsContracting := [1]
  lhsNonContracting := [1]
  rhsNonContracting := [2]
  lhsBatch := [0]
  rhsBatch := [0]
  wf := dot_S16x2048x5_S16x5x768_S16x2048x768_2_1_1_2_0_0_wf

class Facts : Prop extends Facts₀ where

variable [Facts]
-- ==== Proof.Spec.lean ====
/-
  The mathematics both programs compute, stated once over plain index functions into the extended reals.

  Per batch: the masked mean of the queries over the 2048 positions, (∑ₜ q t d · w t) · 2⁻¹¹, where w t ∈ {0, 1}
  marks the kept positions; the scores b1 a t + ∑_d agent d · k t d; their softmax over the positions; the agents'
  values ∑ₜ attn a t · v t d; the softmax over the five agents of a row of the second bias; and the result
  ∑ₐ qAttn t a · agentV a d.

  The softmax is the one both programs spell: subtract the row's maximum (folded from −∞), exponentiate, divide by
  the row's sum. Adding one finite constant to every entry of a row does not change it ('smax_add_const'); that is
  why the reference's query-dependent score, the same for all five agents, drops out of its second softmax.
  The reference's spelling of each piece (a select where the kernel multiplies by the 0/1 mask, a quotient by 2048
  where the kernel multiplies by 2⁻¹¹, sums started from a zero word) is stated beside it and proved equal.
-/
import Idealize.ShloMosaic.PureOps.Ideal
import Idealize.ShloMosaic.PureOps.Ideal.Laws
import Idealize.ShloMosaic.Lib.ValueIdx

noncomputable section

namespace Cert.Spec

open Idealize.ShloMosaic

/-! ## The float words the programs spell -/

/-- The word of −∞, from which both programs fold a row's maximum. -/
abbrev negInfW : EReal := Ideal.ofBits .f32 0xFF800000#32
/-- The word of +0.0, from which the host starts its sums. -/
abbrev zeroW : EReal := Ideal.ofBits .f32 0x00000000#32
/-- The word of 2048.0, the reference's divisor. -/
abbrev w2048 : EReal := Ideal.ofBits .f32 0x45000000#32
/-- The word of 2⁻¹¹ = 1/2048, the kernel's factor. -/
abbrev wInv2048 : EReal := Ideal.ofBits .f32 0x3A000000#32

theorem negInfW_eq : negInfW = ⊥ := by simp [Ideal.ofBits, Ideal.ieee]
theorem zeroW_eq : zeroW = 0 := Ideal.ofBits_zero_f32
theorem w2048_eq : w2048 = ((2048 : ℝ) : EReal) := by
  simp [Ideal.ofBits, Ideal.ieee, -EReal.coe_mul]; norm_num
theorem wInv2048_eq : wInv2048 = ((1 / 2048 : ℝ) : EReal) := by
  simp [Ideal.ofBits, Ideal.ieee, -EReal.coe_mul]; norm_num

/-- Dividing by 2048 is multiplying by 2⁻¹¹, on every extended real. -/
theorem div_w2048 (x : EReal) : Ideal.div x w2048 = x * wInv2048 := by
  rw [w2048_eq, wInv2048_eq]; exact Ideal.div_coe (by norm_num) x

/-- Keeping x where the bit is set and zero elsewhere is the product with the bit read as a number. -/
theorem select_zero_eq_mul (p : BitVec 1) (x : EReal) :
    Scalar.select p x zeroW = x * (((p.toNat : ℝ)) : EReal) := by
  rw [zeroW_eq]
  unfold Scalar.select
  rcases BitVec.eq_zero_or_eq_one p with rfl | rfl <;> simp

/-! ## The softmax of a row -/

/-- A row's maximum as both programs take it: folded from −∞, then once more against −∞. -/
def rowMax {n : Nat} (z : Fin n → EReal) : EReal := max negInfW ((Finset.univ : Finset (Fin n)).fold max negInfW z)

/-- The softmax of a row at an entry. -/
def smax {n : Nat} (z : Fin n → EReal) (j : Fin n) : EReal :=
  Ideal.div (Ideal.exp (z j - rowMax z)) (∑ j' : Fin n, Ideal.exp (z j' - rowMax z))

/-- The same with the sum started from the zero word, as the host spells it. -/
def smaxH {n : Nat} (z : Fin n → EReal) (j : Fin n) : EReal :=
  Ideal.div (Ideal.exp (z j - rowMax z)) (zeroW + ∑ j' : Fin n, Ideal.exp (z j' - rowMax z))

theorem smaxH_eq {n : Nat} (z : Fin n → EReal) (j : Fin n) : smaxH z j = smax z j := by
  unfold smaxH smax; rw [zeroW_eq, zero_add]

theorem fold_max_add_const {n : Nat} (z : Fin n → EReal) (r : ℝ) :
    (Finset.univ : Finset (Fin n)).fold max ⊥ (fun a => z a + (r : EReal))
      = (Finset.univ : Finset (Fin n)).fold max ⊥ z + (r : EReal) := by
  have h := Finset.fold_hom (op := (max : EReal → EReal → EReal)) (op' := (max : EReal → EReal → EReal))
    (s := (Finset.univ : Finset (Fin n))) (b := (⊥ : EReal)) (f := z) (m := fun x : EReal => x + (r : EReal))
    (fun x y => (show Monotone (fun x : EReal => x + (r : EReal)) from fun a b hab => add_le_add_left hab _).map_max)
  rw [EReal.bot_add] at h
  exact h

theorem add_sub_add_const (x y : EReal) (r : ℝ) : (x + (r : EReal)) - (y + (r : EReal)) = x - y := by
  induction x using EReal.rec with
  | bot => rw [EReal.bot_add, EReal.bot_sub, EReal.bot_sub]
  | top =>
    rw [EReal.top_add_coe]
    induction y using EReal.rec with
    | bot => rw [EReal.bot_add]
    | top => rw [EReal.top_add_coe]
    | coe b => rw [← EReal.coe_add, EReal.top_sub_coe, EReal.top_sub_coe]
  | coe a =>
    induction y using EReal.rec with
    | bot => rw [EReal.bot_add, ← EReal.coe_add, EReal.coe_sub_bot, EReal.coe_sub_bot]
    | top => rw [EReal.top_add_coe, EReal.sub_top, EReal.sub_top]
    | coe b =>
      rw [← EReal.coe_add, ← EReal.coe_add, ← EReal.coe_sub, ← EReal.coe_sub]
      exact congrArg _ (by ring)

theorem rowMax_add_const {n : Nat} (z : Fin n → EReal) (r : ℝ) :
    rowMax (fun a => z a + (r : EReal)) = rowMax z + (r : EReal) := by
  unfold rowMax
  rw [negInfW_eq, max_eq_right bot_le, max_eq_right bot_le]
  exact fold_max_add_const z r

/-- THE LAW: one finite constant added to every entry of a row leaves its softmax unchanged. -/
theorem smax_add_const {n : Nat} (z : Fin n → EReal) (r : ℝ) : smax (fun a => z a + (r : EReal)) = smax z := by
  funext j
  unfold smax
  rw [rowMax_add_const]
  simp only [add_sub_add_const]

/-! ## Finite entries stay finite under products and finite sums -/

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih =>
    obtain ⟨r1, h1⟩ := h a
    obtain ⟨r2, h2⟩ := ih
    exact ⟨r1 + r2, by rw [Finset.sum_insert ha, h1, h2, EReal.coe_add]⟩

/-! ## One batch of the computation -/

/-- Whether a mask word is kept: it is not zero. -/
def keepBit (x : BitVec 32) : BitVec 1 := IntOp.cmpi .ne x 0#32

/-- The mask bit read as the number 0 or 1. -/
def maskVal (p : BitVec 1) : EReal := (((p.toNat : ℝ)) : EReal)

theorem maskVal_isReal (p : BitVec 1) : IsReal (maskVal p) := ⟨_, rfl⟩

section Batch

variable (qb kb vb : Fin 2048 → Fin 768 → EReal) (wb : Fin 2048 → EReal) (pb : Fin 2048 → BitVec 1)
  (b1 : Fin 5 → Fin 2048 → EReal) (b2 : Fin 2048 → Fin 5 → EReal)

/-- The masked mean of the queries: the sum over the positions of q · w, times 2⁻¹¹. -/
def agent (d : Fin 768) : EReal := (∑ t : Fin 2048, qb t d * wb t) * wInv2048

/-- An agent's score at a position: the first bias plus the agent vector against that position's key. -/
def score (a : Fin 5) (t : Fin 2048) : EReal := b1 a t + ∑ d : Fin 768, agent qb wb d * kb t d

/-- The agents' attention over the positions. -/
def attn (a : Fin 5) (t : Fin 2048) : EReal := smax (score qb kb wb b1 a) t

/-- What an attention table gathers from the values. -/
def agentV (att : Fin 5 → Fin 2048 → EReal) (a : Fin 5) (d : Fin 768) : EReal := ∑ t : Fin 2048, att a t * vb t d

/-- The positions' attention over the agents: the softmax of a row of the second bias. -/
def qAttn (t : Fin 2048) (a : Fin 5) : EReal := smax (b2 t) a

/-- The result from a table over the agents and an attention table. -/
def outOf (qa : Fin 2048 → Fin 5 → EReal) (att : Fin 5 → Fin 2048 → EReal) (t : Fin 2048) (d : Fin 768) : EReal :=
  ∑ a : Fin 5, qa t a * agentV vb att a d

/-- The whole batch. -/
def out (t : Fin 2048) (d : Fin 768) : EReal := outOf vb (qAttn b2) (attn qb kb wb b1) t d

/-! ### The reference's spelling -/

def agentR (d : Fin 768) : EReal :=
  Ideal.div (zeroW + ∑ t : Fin 2048, Scalar.select (pb t) (qb t d) zeroW) w2048

def scoreR (a : Fin 5) (t : Fin 2048) : EReal := (∑ d : Fin 768, agentR qb pb d * kb t d) + b1 a t

def attnR (a : Fin 5) (t : Fin 2048) : EReal := smaxH (scoreR qb kb pb b1 a) t

def qScoreR (t : Fin 2048) (a : Fin 5) : EReal := (∑ d : Fin 768, qb t d * agentR qb pb d) + b2 t a

def qAttnR (t : Fin 2048) (a : Fin 5) : EReal := smaxH (qScoreR qb pb b2 t) a

def outR (t : Fin 2048) (d : Fin 768) : EReal :=
  ∑ a : Fin 5, qAttnR qb pb b2 t a * ∑ t' : Fin 2048, attnR qb kb pb b1 a t' * vb t' d

theorem agentR_eq (d : Fin 768) : agentR qb pb d = agent qb (fun t => maskVal (pb t)) d := by
  unfold agentR agent
  simp only [select_zero_eq_mul, maskVal]
  rw [zeroW_eq, zero_add, div_w2048]

theorem scoreR_eq (a : Fin 5) : scoreR qb kb pb b1 a = score qb kb (fun t => maskVal (pb t)) b1 a := by
  funext t
  unfold scoreR score
  rw [add_comm]
  simp only [agentR_eq]

theorem attnR_eq (a : Fin 5) (t : Fin 2048) : attnR qb kb pb b1 a t = attn qb kb (fun t => maskVal (pb t)) b1 a t := by
  unfold attnR attn
  rw [smaxH_eq, scoreR_eq]

theorem agent_isReal (hq : ∀ t d, IsReal (qb t d)) (hw : ∀ t, IsReal (wb t)) (d : Fin 768) : IsReal (agent qb wb d) := by
  unfold agent
  exact (IsReal.sum _ _ fun t => (hq t d).mul (hw t)).mul ⟨_, wInv2048_eq⟩

/-- The reference's second softmax is the softmax of the bias row alone: its query term is one finite number
    for all five agents. -/
theorem qAttnR_eq (hq : ∀ t d, IsReal (qb t d)) (t : Fin 2048) (a : Fin 5) : qAttnR qb pb b2 t a = qAttn b2 t a := by
  unfold qAttnR qAttn
  rw [smaxH_eq]
  obtain ⟨r, hr⟩ : IsReal (∑ d : Fin 768, qb t d * agentR qb pb d) :=
    IsReal.sum _ _ fun d => (hq t d).mul (by rw [agentR_eq]; exact agent_isReal qb _ hq (fun t => maskVal_isReal _) d)
  have e : qScoreR qb pb b2 t = fun a' => b2 t a' + (r : EReal) := by
    funext a'; unfold qScoreR; rw [hr, add_comm]
  rw [e, smax_add_const]

/-- The reference's batch is the specification's, when every query entry is finite. -/
theorem outR_eq (hq : ∀ t d, IsReal (qb t d)) (t : Fin 2048) (d : Fin 768) :
    outR qb kb vb pb b1 b2 t d = out qb kb vb (fun t => maskVal (pb t)) b1 b2 t d := by
  unfold outR out outOf agentV
  simp only [qAttnR_eq qb pb b2 hq, attnR_eq]

end Batch

end Cert.Spec

end
-- ==== Proof.Finite.lean ====
/-
  From the precondition to numbers: where every float input is finite, each entry of the stacked query / key /
  value array is a real number.
-/
import proofs.«136177_j1838246003405_1_alg».proof.Pre_finite_inputs
import proofs.«136177_j1838246003405_1_alg».proof.Proof.Gen.Pre_finite_inputs
import proofs.«136177_j1838246003405_1_alg».proof.Proof.Spec
import Idealize.ShloMosaic.Lib.ValueIdx
import Idealize.ShloMosaic.Lib.ReduceAll

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The word the inputs' absolute values are compared with is +∞. -/
theorem posInfW_eq : Ideal.ofBits .f32 0x7F800000#32 = (⊤ : EReal) := by simp [Ideal.ofBits, Ideal.ieee]

/-- A strict comparison whose word is 1 holds. -/
theorem lt_of_cmp_olt (a b : EReal) (e : Ideal.cmp .olt a b = 1#1) : a < b := by
  have e' : BitVec.ofBool (decide (a < b)) = 1#1 := e
  by_contra hn
  rw [decide_eq_false hn] at e'
  exact absurd e' (by decide)

/-- An extended real whose absolute value is below +∞ is a real number: at ±∞ the absolute value is +∞. -/
theorem isReal_of_abs_lt_top (x : EReal) (hx : max x (-x) < ⊤) : Spec.IsReal x := by
  induction x using EReal.rec with
  | bot => exact absurd hx (by simp)
  | top => exact absurd hx (by simp)
  | coe r => exact ⟨r, rfl⟩

theorem qkv_isReal [Cert.Pre_finite_inputs.Facts] (x0 : (⟨S3x16x2048x768, .f32⟩ : BufTy).Contents (Elt Ideal)) (x1 : (⟨S16x2048, .i32⟩ : BufTy).Contents (Elt Ideal))
    (x2 : (⟨S5x2048, .f32⟩ : BufTy).Contents (Elt Ideal)) (x3 : (⟨S2048x5, .f32⟩ : BufTy).Contents (Elt Ideal))
    (h : Cert.Pre_finite_inputs.fn (F := Ideal) x0 x1 x2 x3 = (fun _ => 1#1)) (i : S3x16x2048x768.Idx) :
    Spec.IsReal (x0 i) := by
  -- the predicate's one word is 1
  have h0 := congrFun h ix0
  dsimp only [fn] at h0
  -- of the three conjuncts keep the first: the test over the stacked array
  obtain ⟨h1, -⟩ := IntOp.andi_eq_one.1 h0
  obtain ⟨h2, -⟩ := IntOp.andi_eq_one.1 h1
  -- the conjunction over all its entries is 1, so the entry at i passes the test |x| < +∞
  have h3 := Host.reduce_andi_all _ _ _ _ _ h2 i
  have h4 : Ideal.cmp .olt (max (x0 i) (-(x0 i))) (Ideal.ofBits .f32 0x7F800000#32) = 1#1 := h3
  rw [posInfW_eq] at h4
  exact isReal_of_abs_lt_top _ (lt_of_cmp_olt _ _ h4)

end Cert.Finite

end
-- ==== Proof.RefValue.lean ====
/-
  The reference's result read at an entry (b, t, d): the reference's own spelling of the batch computation
  (Spec.outR) of batch b's slices of the query, key and value arrays, the kept-position bits of the mask row and
  the two bias tables.
-/
import proofs.«136177_j1838246003405_1_alg».proof.Proof.Gen.ReferenceIdeal.Read
import proofs.«136177_j1838246003405_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

section Stages

variable (x0 : (⟨S3x16x2048x768, .f32⟩ : BufTy).Contents (Elt Ideal)) (x1 : (⟨S16x2048, .i32⟩ : BufTy).Contents (Elt Ideal))
  (x2 : (⟨S5x2048, .f32⟩ : BufTy).Contents (Elt Ideal)) (x3 : (⟨S2048x5, .f32⟩ : BufTy).Contents (Elt Ideal))

/-! ## Batch b's operands as plain index functions -/

/-- Batch b's queries. -/
abbrev qB (b : Fin 16) : Fin 2048 → Fin 768 → EReal := fun t d => x0 (ix4 (0 : Fin 3) b t d)
/-- Batch b's keys. -/
abbrev kB (b : Fin 16) : Fin 2048 → Fin 768 → EReal := fun t d => x0 (ix4 (1 : Fin 3) b t d)
/-- Batch b's values. -/
abbrev vB (b : Fin 16) : Fin 2048 → Fin 768 → EReal := fun t d => x0 (ix4 (2 : Fin 3) b t d)
/-- Batch b's kept-position bits. -/
abbrev pB (b : Fin 16) : Fin 2048 → BitVec 1 := fun t => Spec.keepBit (x1 (ix2 b t))
/-- The first bias table. -/
abbrev b1T : Fin 5 → Fin 2048 → EReal := fun a t => x2 (ix2 a t)
/-- The second bias table. -/
abbrev b2T : Fin 2048 → Fin 5 → EReal := fun t a => x3 (ix2 t a)

/-! ## The three slices -/

/-- Dropping the leading unit axis: the entry (b, t, d) of the reshaped array is the entry (0, b, t, d). -/
theorem reshape_idx (b : Fin 16) (t : Fin 2048) (d : Fin 768) :
    idx_main_v1 (ix3 b t d) = ix4 (0 : Fin 1) b t d := by
  funext c; apply Fin.ext
  have hb := b.isLt; have ht := t.isLt; have hd := d.isLt
  match c with
  | ⟨0, _⟩ => rfl
  | ⟨1, _⟩ => show ((b.val * 2048 + t.val) * 768 + d.val) / 1572864 % 16 = b.val; omega
  | ⟨2, _⟩ => show ((b.val * 2048 + t.val) * 768 + d.val) / 768 % 2048 = t.val; omega
  | ⟨3, _⟩ => show ((b.val * 2048 + t.val) * 768 + d.val) % 768 = d.val; omega

/-- The query slice at (b, t, d). -/
theorem v1_at (b : Fin 16) (t : Fin 2048) (d : Fin 768) :
    val_main_v1 (F := Ideal) x0 (ix3 b t d) = qB x0 b t d := by
  rw [val_main_v1_apply, reshape_idx, val_main_v0_apply]
  exact congrArg x0 (funext fun c => Fin.ext (by
    match c with | ⟨0, _⟩ => rfl | ⟨1, _⟩ => rfl | ⟨2, _⟩ => rfl | ⟨3, _⟩ => rfl))

/-- The key slice at (b, t, d). -/
theorem v3_at (b : Fin 16) (t : Fin 2048) (d : Fin 768) :
    val_main_v3 (F := Ideal) x0 (ix3 b t d) = kB x0 b t d := by
  rw [val_main_v3_apply, show idx_main_v3 (ix3 b t d) = ix4 (0 : Fin 1) b t d from reshape_idx b t d, val_main_v2_apply]
  exact congrArg x0 (funext fun c => Fin.ext (by
    match c with | ⟨0, _⟩ => rfl | ⟨1, _⟩ => rfl | ⟨2, _⟩ => rfl | ⟨3, _⟩ => rfl))

/-- The value slice at (b, t, d). -/
theorem v5_at (b : Fin 16) (t : Fin 2048) (d : Fin 768) :
    val_main_v5 (F := Ideal) x0 (ix3 b t d) = vB x0 b t d := by
  rw [val_main_v5_apply, show idx_main_v5 (ix3 b t d) = ix4 (0 : Fin 1) b t d from reshape_idx b t d, val_main_v4_apply]
  exact congrArg x0 (funext fun c => Fin.ext (by
    match c with | ⟨0, _⟩ => rfl | ⟨1, _⟩ => rfl | ⟨2, _⟩ => rfl | ⟨3, _⟩ => rfl))

/-! ## The masked mean of the queries -/

/-- The select at (b, t, d): the query where the position is kept, the zero word elsewhere. -/
theorem v9_at (b : Fin 16) (t : Fin 2048) (d : Fin 768) :
    val_main_v9 (F := Ideal) x0 x1 (ix3 b t d) = Scalar.select (pB x1 b t) (qB x0 b t d) Spec.zeroW := by
  rw [val_main_v9_apply, v1_at, val_main_call0_v0_apply, val_main_v8_apply, val_main_v7_apply, val_main_v6_apply,
    val_main_c_apply, val_main_call0_v1_apply, val_main_cst_apply]
  rw [show idx_main_v8 (idx_main_call0_v0 (ix3 b t d)) = ix2 b t from funext fun c => Fin.ext (by
    match c with | ⟨0, _⟩ => rfl | ⟨1, _⟩ => rfl)]
  rfl

/-- The sum over the positions at (b, d), started from the zero word. -/
theorem v10_at (b : Fin 16) (d : Fin 768) :
    val_main_v10 (F := Ideal) x0 x1 (ix2 b d)
      = Spec.zeroW + ∑ t : Fin 2048, Scalar.select (pB x1 b t) (qB x0 b t d) Spec.zeroW := by
  rw [val_main_v10_apply, val_main_cst_0_apply]
  refine congrArg (Spec.zeroW + ·) (Finset.sum_congr rfl fun t _ => ?_)
  rw [show idx_main_v10 (ix2 b d) t = ix3 b t d from funext fun c => Fin.ext (by
    match c with | ⟨0, _⟩ => rfl | ⟨1, _⟩ => rfl | ⟨2, _⟩ => rfl), v9_at]

/-- The agent vector, broadcast over the five agents, at (b, a, d): the reference's masked mean. -/
theorem v14_at (b : Fin 16) (a : Fin 5) (d : Fin 768) :
    val_main_v14 (F := Ideal) x0 x1 (ix3 b a d) = Spec.agentR (qB x0 b) (pB x1 b) d := by
  rw [val_main_v14_apply, val_main_v13_apply, val_main_v11_apply, val_main_v12_apply, val_main_cst_1_apply]
  rw [show idx_main_v11 (idx_main_v14 (ix3 b a d)) = ix2 b d from funext fun c => Fin.ext (by
    match c with | ⟨0, _⟩ => rfl | ⟨1, _⟩ => rfl), v10_at]
  rfl

/-! ## The agents' scores and their softmax over the positions -/

/-- The score at (b, a, t): the agent vector against the key of position t, plus the first bias. -/
theorem v18_at (b : Fin 16) (a : Fin 5) (t : Fin 2048) :
    val_main_v18 (F := Ideal) x0 x1 x2 (ix3 b a t) = Spec.scoreR (qB x0 b) (kB x0 b) (pB x1 b) (b1T x2) a t := by
  rw [val_main_v18_apply, val_main_v15_apply, val_main_v17_apply, val_main_v16_apply, Ideal.addf_def]
  rw [show idx_main_v16 (idx_main_v17 (ix3 b a t)) = ix2 a t from funext fun c => Fin.ext (by
    match c with | ⟨0, _⟩ => rfl | ⟨1, _⟩ => rfl)]
  unfold Spec.scoreR
  refine congrArg (· + b1T x2 a t) (Finset.sum_congr rfl fun d _ => ?_)
  rw [show lidx_main_v15 (ix3 b a t) d = ix3 b a d from funext fun c => Fin.ext (by
      match c with | ⟨0, _⟩ => rfl | ⟨1, _⟩ => rfl | ⟨2, _⟩ => rfl),
    show ridx_main_v15 (ix3 b a t) d = ix3 b t d from funext fun c => Fin.ext (by
      match c with | ⟨0, _⟩ => rfl | ⟨1, _⟩ => rfl | ⟨2, _⟩ => rfl), v14_at, v3_at]

/-- The agents' score row of batch b. -/
abbrev zS (b : Fin 16) (a : Fin 5) : Fin 2048 → EReal :=
  Spec.scoreR (qB x0 b) (kB x0 b) (pB x1 b) (b1T x2) a

/-- The fold of the maximum over the positions at (b, a), from −∞. -/
theorem v19_at (b : Fin 16) (a : Fin 5) :
    val_main_v19 (F := Ideal) x0 x1 x2 (ix2 b a)
      = (Finset.univ : Finset (Fin 2048)).fold max Spec.negInfW (zS x0 x1 x2 b a) := by
  unfold val_main_v19
  have h : S16x5x2048.Reduces [2] S16x5 := by decide
  rw [Host.reduce_eq_fold_single FloatOps.maximumf _ _ reducesTo_S16x5x2048_S16x5_d2 h h_S_ (ix2 b a)]
  show (Finset.univ : Finset (Fin 2048)).fold max Spec.negInfW
      (fun k : Fin 2048 => val_main_v18 (F := Ideal) x0 x1 x2 (h.lift (ix2 b a) k)) = _
  refine congrArg (fun f => (Finset.univ : Finset (Fin 2048)).fold max Spec.negInfW f) (funext fun k => ?_)
  rw [show h.lift (ix2 b a) k = ix3 b a k from funext fun c => Fin.ext (by
    match c with | ⟨0, _⟩ => rfl | ⟨1, _⟩ => rfl | ⟨2, _⟩ => rfl), v18_at]

/-- The row maximum at (b, a). -/
theorem v21_at (b : Fin 16) (a : Fin 5) :
    val_main_v21 (F := Ideal) x0 x1 x2 (ix2 b a) = Spec.rowMax (zS x0 x1 x2 b a) := by
  rw [val_main_v21_apply, val_main_v20_apply, val_main_cst_3_apply, v19_at]
  rfl

/-- The exponential of the shifted score at (b, a, t). -/
theorem v25_at (b : Fin 16) (a : Fin 5) (t : Fin 2048) :
    val_main_v25 (F := Ideal) x0 x1 x2 (ix3 b a t)
      = Ideal.exp (zS x0 x1 x2 b a t - Spec.rowMax (zS x0 x1 x2 b a)) := by
  rw [val_main_v25_apply, val_main_v24_apply, val_main_v23_apply, val_main_v22_apply, v18_at]
  rw [show idx_main_v22 (idx_main_v23 (ix3 b a t)) = ix2 b a from funext fun c => Fin.ext (by
    match c with | ⟨0, _⟩ => rfl | ⟨1, _⟩ => rfl), v21_at]
  rfl

/-- The row's sum of exponentials at (b, a), started from the zero word. -/
theorem v26_at (b : Fin 16) (a : Fin 5) :
    val_main_v26 (F := Ideal) x0 x1 x2 (ix2 b a)
      = Spec.zeroW + ∑ t : Fin 2048, Ideal.exp (zS x0 x1 x2 b a t - Spec.rowMax (zS x0 x1 x2 b a)) := by
  rw [val_main_v26_apply, val_main_cst_4_apply]
  refine congrArg (Spec.zeroW + ·) (Finset.sum_congr rfl fun t _ => ?_)
  rw [show idx_main_v26 (ix2 b a) t = ix3 b a t from funext fun c => Fin.ext (by
    match c with | ⟨0, _⟩ => rfl | ⟨1, _⟩ => rfl | ⟨2, _⟩ => rfl), v25_at]

/-- The agents' attention at (b, a, t). -/
theorem v29_at (b : Fin 16) (a : Fin 5) (t : Fin 2048) :
    val_main_v29 (F := Ideal) x0 x1 x2 (ix3 b a t)
      = Spec.attnR (qB x0 b) (kB x0 b) (pB x1 b) (b1T x2) a t := by
  rw [val_main_v29_apply, val_main_v28_apply, val_main_v27_apply, v25_at]
  rw [show idx_main_v27 (idx_main_v28 (ix3 b a t)) = ix2 b a from funext fun c => Fin.ext (by
    match c with | ⟨0, _⟩ => rfl | ⟨1, _⟩ => rfl), v26_at]
  rfl

/-- What the agents gather from the values at (b, a, d). -/
theorem v30_at (b : Fin 16) (a : Fin 5) (d : Fin 768) :
    val_main_v30 (F := Ideal) x0 x1 x2 (ix3 b a d)
      = ∑ t : Fin 2048, Spec.attnR (qB x0 b) (kB x0 b) (pB x1 b) (b1T x2) a t * vB x0 b t d := by
  rw [val_main_v30_apply]
  refine Finset.sum_congr rfl fun t _ => ?_
  rw [show lidx_main_v30 (ix3 b a d) t = ix3 b a t from funext fun c => Fin.ext (by
      match c with | ⟨0, _⟩ => rfl | ⟨1, _⟩ => rfl | ⟨2, _⟩ => rfl),
    show ridx_main_v30 (ix3 b a d) t = ix3 b t d from funext fun c => Fin.ext (by
      match c with | ⟨0, _⟩ => rfl | ⟨1, _⟩ => rfl | ⟨2, _⟩ => rfl), v29_at, v5_at]

/-! ## The positions' scores and their softmax over the agents -/

/-- The positions' score row of batch b. -/
abbrev zQ (b : Fin 16) (t : Fin 2048) : Fin 5 → EReal :=
  Spec.qScoreR (qB x0 b) (pB x1 b) (b2T x3) t

/-- The score at (b, t, a): the query of position t against the agent vector, plus the second bias. -/
theorem v34_at (b : Fin 16) (t : Fin 2048) (a : Fin 5) :
    val_main_v34 (F := Ideal) x0 x1 x3 (ix3 b t a) = zQ x0 x1 x3 b t a := by
  rw [val_main_v34_apply, val_main_v31_apply, val_main_v33_apply, val_main_v32_apply, Ideal.addf_def]
  rw [show idx_main_v32 (idx_main_v33 (ix3 b t a)) = ix2 t a from funext fun c => Fin.ext (by
    match c with | ⟨0, _⟩ => rfl | ⟨1, _⟩ => rfl)]
  show _ = Spec.qScoreR (qB x0 b) (pB x1 b) (b2T x3) t a
  unfold Spec.qScoreR
  refine congrArg (· + b2T x3 t a) (Finset.sum_congr rfl fun d _ => ?_)
  rw [show lidx_main_v31 (ix3 b t a) d = ix3 b t d from funext fun c => Fin.ext (by
      match c with | ⟨0, _⟩ => rfl | ⟨1, _⟩ => rfl | ⟨2, _⟩ => rfl),
    show ridx_main_v31 (ix3 b t a) d = ix3 b a d from funext fun c => Fin.ext (by
      match c with | ⟨0, _⟩ => rfl | ⟨1, _⟩ => rfl | ⟨2, _⟩ => rfl), v1_at, v14_at]

/-- The fold of the maximum over the agents at (b, t), from −∞. -/
theorem v35_at (b : Fin 16) (t : Fin 2048) :
    val_main_v35 (F := Ideal) x0 x1 x3 (ix2 b t)
      = (Finset.univ : Finset (Fin 5)).fold max Spec.negInfW (zQ x0 x1 x3 b t) := by
  unfold val_main_v35
  have h : S16x2048x5.Reduces [2] S16x2048 := by decide
  rw [Host.reduce_eq_fold_single FloatOps.maximumf _ _ reducesTo_S16x2048x5_S16x2048_d2 h h_S_ (ix2 b t)]
  show (Finset.univ : Finset (Fin 5)).fold max Spec.negInfW
      (fun k : Fin 5 => val_main_v34 (F := Ideal) x0 x1 x3 (h.lift (ix2 b t) k)) = _
  refine congrArg (fun f => (Finset.univ : Finset (Fin 5)).fold max Spec.negInfW f) (funext fun k => ?_)
  rw [show h.lift (ix2 b t) k = ix3 b t k from funext fun c => Fin.ext (by
    match c with | ⟨0, _⟩ => rfl | ⟨1, _⟩ => rfl | ⟨2, _⟩ => rfl), v34_at]

/-- The row maximum at (b, t). -/
theorem v37_at (b : Fin 16) (t : Fin 2048) :
    val_main_v37 (F := Ideal) x0 x1 x3 (ix2 b t) = Spec.rowMax (zQ x0 x1 x3 b t) := by
  rw [val_main_v37_apply, val_main_v36_apply, val_main_cst_6_apply, v35_at]
  rfl

/-- The exponential of the shifted score at (b, t, a). -/
theorem v41_at (b : Fin 16) (t : Fin 2048) (a : Fin 5) :
    val_main_v41 (F := Ideal) x0 x1 x3 (ix3 b t a)
      = Ideal.exp (zQ x0 x1 x3 b t a - Spec.rowMax (zQ x0 x1 x3 b t)) := by
  rw [val_main_v41_apply, val_main_v40_apply, val_main_v39_apply, val_main_v38_apply, v34_at]
  rw [show idx_main_v38 (idx_main_v39 (ix3 b t a)) = ix2 b t from funext fun c => Fin.ext (by
    match c with | ⟨0, _⟩ => rfl | ⟨1, _⟩ => rfl), v37_at]
  rfl

/-- The row's sum of exponentials at (b, t), started from the zero word. -/
theorem v42_at (b : Fin 16) (t : Fin 2048) :
    val_main_v42 (F := Ideal) x0 x1 x3 (ix2 b t)
      = Spec.zeroW + ∑ a : Fin 5, Ideal.exp (zQ x0 x1 x3 b t a - Spec.rowMax (zQ x0 x1 x3 b t)) := by
  rw [val_main_v42_apply, val_main_cst_7_apply]
  refine congrArg (Spec.zeroW + ·) (Finset.sum_congr rfl fun a _ => ?_)
  rw [show idx_main_v42 (ix2 b t) a = ix3 b t a from funext fun c => Fin.ext (by
    match c with | ⟨0, _⟩ => rfl | ⟨1, _⟩ => rfl | ⟨2, _⟩ => rfl), v41_at]

/-- The positions' attention at (b, t, a). -/
theorem v45_at (b : Fin 16) (t : Fin 2048) (a : Fin 5) :
    val_main_v45 (F := Ideal) x0 x1 x3 (ix3 b t a) = Spec.qAttnR (qB x0 b) (pB x1 b) (b2T x3) t a := by
  rw [val_main_v45_apply, val_main_v44_apply, val_main_v43_apply, v41_at]
  rw [show idx_main_v43 (idx_main_v44 (ix3 b t a)) = ix2 b t from funext fun c => Fin.ext (by
    match c with | ⟨0, _⟩ => rfl | ⟨1, _⟩ => rfl), v42_at]
  rfl

end Stages

/-! ## The result -/

theorem result_apply (x0 : (⟨S3x16x2048x768, .f32⟩ : BufTy).Contents (Elt Ideal)) (x1 : (⟨S16x2048, .i32⟩ : BufTy).Contents (Elt Ideal))
    (x2 : (⟨S5x2048, .f32⟩ : BufTy).Contents (Elt Ideal)) (x3 : (⟨S2048x5, .f32⟩ : BufTy).Contents (Elt Ideal))
    (b : Fin 16) (t : Fin 2048) (d : Fin 768) :
    val_main_v46 (F := Ideal) x0 x1 x2 x3 (ix3 b t d)
      = Spec.outR (fun t d => x0 (ix4 (0 : Fin 3) b t d)) (fun t d => x0 (ix4 (1 : Fin 3) b t d)) (fun t d => x0 (ix4 (2 : Fin 3) b t d))
          (fun t => Spec.keepBit (x1 (ix2 b t))) (fun a t => x2 (ix2 a t)) (fun t a => x3 (ix2 t a)) t d := by
  rw [val_main_v46_apply]
  show _ = Spec.outR (qB x0 b) (kB x0 b) (vB x0 b) (pB x1 b) (b1T x2) (b2T x3) t d
  unfold Spec.outR
  refine Finset.sum_congr rfl fun a _ => ?_
  rw [show lidx_main_v46 (ix3 b t d) a = ix3 b t a from funext fun c => Fin.ext (by
      match c with | ⟨0, _⟩ => rfl | ⟨1, _⟩ => rfl | ⟨2, _⟩ => rfl),
    show ridx_main_v46 (ix3 b t d) a = ix3 b a d from funext fun c => Fin.ext (by
      match c with | ⟨0, _⟩ => rfl | ⟨1, _⟩ => rfl | ⟨2, _⟩ => rfl), v45_at, v30_at]

end Cert.ReferenceIdeal.RefValue

end
-- ==== Proof.KBody0.lean ====
/-
  The first kernel's stored value read at an entry: at agent a and position t of its 5 × 2048 block it is the
  softmax over the positions of the scores b1 a · + ∑_d agent d · k · d, where agent is the masked mean of the
  query block (the sum over the rows of q · w, times 2⁻¹¹).
-/
import proofs.«136177_j1838246003405_1_alg».proof.Proof.Gen.KernelIdeal.Skeleton
import proofs.«136177_j1838246003405_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

/-! ## Two layout readings: a column broadcast along the rows, and a vector stood up as a column -/

section Layout
variable {α : Type}

/-- An [a, 1] column broadcast to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to the [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The index a one-axis reduction of a matrix reads: the reduced coordinate put back on its axis -/

theorem lift_axis0 {m n : ℕ} (h : (⟨2, ![m, n]⟩ : Shape).Reduces [0] ⟨1, ![n]⟩) (d : Fin n) (k : Fin m) :
    h.lift (ix1 d) k = ix2 k d :=
  funext fun c => Fin.ext (by match c with | ⟨0, _⟩ => rfl | ⟨1, _⟩ => rfl)

theorem lift_axis1 {m n : ℕ} (h : (⟨2, ![m, n]⟩ : Shape).Reduces [1] ⟨1, ![m]⟩) (a : Fin m) (k : Fin n) :
    h.lift (ix1 a) k = ix2 a k :=
  funext fun c => Fin.ext (by match c with | ⟨0, _⟩ => rfl | ⟨1, _⟩ => rfl)

/-! ## One-axis reductions of a matrix read at an entry -/

section Reductions
variable {φ : FTy}

/-- The sum over the rows: at column d, the sum over k of the entry (k, d). -/
theorem sum_axis0_apply {m n : ℕ} (src : FVec Ideal ⟨2, ![m, n]⟩ φ) (acc : BitVec φ.bits)
    (h : (⟨2, ![m, n]⟩ : Shape).Reduces [0] ⟨1, ![n]⟩) (hφ : FKind.Formats φ) (hacc : acc = FKind.add.neutral φ hφ) (d : Fin n) :
    multiReduction (F := Ideal) .add [0] ⟨1, ![n]⟩ src acc h hφ hacc (ix1 d) = ∑ k : Fin m, src (ix2 k d) :=
  (Ideal.multiReduction_add_single src acc h hφ hacc (ix1 d)).trans
    (Finset.sum_congr rfl fun k _ => congrArg src (lift_axis0 h d k))

/-- The sum along a row: at row a, the sum over k of the entry (a, k). -/
theorem sum_axis1_apply {m n : ℕ} (src : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ) (a : Fin m) :
    multiReduction (F := Ideal) .add [1] ⟨1, ![m]⟩ src acc h hφ hacc (ix1 a) = ∑ k : Fin n, src (ix2 a k) :=
  (Ideal.multiReduction_add_single src acc h hφ hacc (ix1 a)).trans
    (Finset.sum_congr rfl fun k _ => congrArg src (lift_axis1 h a k))

/-- The maximum along a row: at row a, the fold of max over k of the entry (a, k), from the accumulator's word. -/
theorem max_axis1_apply {m n : ℕ} (src : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ) (a : Fin m) :
    multiReduction (F := Ideal) .maximumf [1] ⟨1, ![m]⟩ src acc h hφ hacc (ix1 a)
      = (Finset.univ : Finset (Fin n)).fold max (Ideal.ofBits φ acc) (fun k => src (ix2 a k)) :=
  (Ideal.multiReduction_maximumf_single src acc h hφ hacc (ix1 a)).trans
    (congrArg (Finset.fold max (Ideal.ofBits φ acc) · Finset.univ) (funext fun k => congrArg src (lift_axis1 h a k)))

end Reductions

/-! ## The product of the agent row with the keys: the contraction over the feature axis -/

section Matmul

theorem dotS_lhs_0 (i : S1x2048.Idx) (q : dot_S1x768_S2048x768_S1x2048_1_1_0_0_n_n.contr.Idx) :
    (dot_S1x768_S2048x768_S1x2048_1_1_0_0_n_n.lhsIdx i q 0).val = (i 0).val := by
  unfold DotDims.lhsIdx
  rw [dif_neg (show ¬(0 : Fin S1x768.rank) ∈ dot_S1x768_S2048x768_S1x2048_1_1_0_0_n_n.lhsBatch by decide), dif_pos (show (0 : Fin S1x768.rank) ∈ dot_S1x768_S2048x768_S1x2048_1_1_0_0_n_n.lhsNonContracting by decide)]
  rfl
theorem dotS_lhs_1 (i : S1x2048.Idx) (q : dot_S1x768_S2048x768_S1x2048_1_1_0_0_n_n.contr.Idx) :
    (dot_S1x768_S2048x768_S1x2048_1_1_0_0_n_n.lhsIdx i q 1).val = (q ⟨0, by decide⟩).val :=
  dot_S1x768_S2048x768_S1x2048_1_1_0_0_n_n.lhsIdx_val_of_single rfl i q
theorem dotS_rhs_0 (i : S1x2048.Idx) (q : dot_S1x768_S2048x768_S1x2048_1_1_0_0_n_n.contr.Idx) :
    (dot_S1x768_S2048x768_S1x2048_1_1_0_0_n_n.rhsIdx i q 0).val = (i 1).val := by
  unfold DotDims.rhsIdx
  rw [dif_neg (show ¬(0 : Fin S2048x768.rank) ∈ dot_S1x768_S2048x768_S1x2048_1_1_0_0_n_n.rhsBatch by decide), dif_pos (show (0 : Fin S2048x768.rank) ∈ dot_S1x768_S2048x768_S1x2048_1_1_0_0_n_n.rhsNonContracting by decide)]
  rfl
theorem dotS_rhs_1 (i : S1x2048.Idx) (q : dot_S1x768_S2048x768_S1x2048_1_1_0_0_n_n.contr.Idx) :
    (dot_S1x768_S2048x768_S1x2048_1_1_0_0_n_n.rhsIdx i q 1).val = (q ⟨0, by decide⟩).val :=
  dot_S1x768_S2048x768_S1x2048_1_1_0_0_n_n.rhsIdx_val_of_single rfl i q

/-- The one-row product into the zero accumulator, at position t: the sum over the features d of the row's entry
    at d times the right operand's entry at (t, d). -/
theorem matmul_row_apply {φ₁ φ₂ : FTy} (lhs : FVec Ideal S1x768 φ₁) (rhs : FVec Ideal S2048x768 φ₂) (t : Fin 2048) :
    matmul dot_S1x768_S2048x768_S1x2048_1_1_0_0_n_n none lhs rhs (constant (F := Ideal) S1x2048 .f32 0x00000000#32) (ix2 (0 : Fin 1) t)
      = ∑ d : Fin 768, lhs (ix2 (0 : Fin 1) d) * rhs (ix2 t d) := by
  simp only [matmul]
  rw [Ideal.matmul_constant_zero_apply, ← Equiv.sum_comp (contrEquiv1 dot_S1x768_S2048x768_S1x2048_1_1_0_0_n_n 768 rfl rfl).symm]
  refine Finset.sum_congr rfl fun k _ => ?_
  have hk := contrEquiv1_symm_val dot_S1x768_S2048x768_S1x2048_1_1_0_0_n_n 768 rfl rfl k
  have el : dot_S1x768_S2048x768_S1x2048_1_1_0_0_n_n.lhsIdx (ix2 (0 : Fin 1) t) ((contrEquiv1 dot_S1x768_S2048x768_S1x2048_1_1_0_0_n_n 768 rfl rfl).symm k) = ix2 (0 : Fin 1) k := funext fun a => Fin.ext (by
    match a with
    | ⟨0, _⟩ => exact dotS_lhs_0 _ _
    | ⟨1, _⟩ => exact (dotS_lhs_1 _ _).trans hk)
  have er : dot_S1x768_S2048x768_S1x2048_1_1_0_0_n_n.rhsIdx (ix2 (0 : Fin 1) t) ((contrEquiv1 dot_S1x768_S2048x768_S1x2048_1_1_0_0_n_n 768 rfl rfl).symm k) = ix2 t k := funext fun a => Fin.ext (by
    match a with
    | ⟨0, _⟩ => exact dotS_rhs_0 _ _
    | ⟨1, _⟩ => exact (dotS_rhs_1 _ _).trans hk)
  rw [el, er]

end Matmul

/-! ## The agent row: the masked mean of the queries -/

/-- The first stretch of the payload read at feature d: the sum over the positions of q · w, times the word of 2⁻¹¹. -/
theorem agent_row_apply (x0 : Vec Ideal S1x2048x768 .f32) (x2 : Vec Ideal S1x2048x1 .f32)
    (hφ : FKind.Formats .f32) (hacc : (0x00000000#32 : BitVec (FTy.bits .f32)) = FKind.add.neutral .f32 hφ) (d : Fin 768) :
    mulf (shapeCast S1x768 (multiReduction (F := Ideal) .add [0] S768
          (mulf (shapeCast S2048x768 x0 shapeCasts_S1x2048x768_S2048x768)
            (broadcastTo S2048x768 (shapeCast S2048x1 x2 shapeCasts_S1x2048x1_S2048x1) broadcasts_S2048x1_S2048x768))
          0x00000000#32 reduces_S2048x768_S768 hφ hacc) shapeCasts_S768_S1x768)
        (broadcast S1x768 (Scalar.ofBits .f32 0x3A000000#32)) (ix2 (0 : Fin 1) d)
      = Spec.agent (fun t d => x0 (ix3 (0 : Fin 1) t d)) (fun t => x2 (ix3 (0 : Fin 1) t (0 : Fin 1))) d := by
  rw [mulf_apply, shapeCast_a_1a_apply, sum_axis0_apply, broadcast_apply]
  unfold Spec.agent
  refine congrArg (· * Spec.wInv2048) (Finset.sum_congr rfl fun t _ => ?_)
  rw [mulf_apply, shapeCast_1ab_ab_apply, broadcastTo_a1_ab_apply, shapeCast_1ab_ab_apply]

/-! ## The scores: the first bias plus the agent row against each position's key -/

/-- The score block at (a, t), over any agent row and any key block. -/
theorem score_entry_apply (x3 : Vec Ideal S5x2048 .f32) (A : FVec Ideal S1x768 .f32) (K : FVec Ideal S2048x768 .f32)
    (a : Fin 5) (t : Fin 2048) :
    addf x3 (broadcastTo S5x2048
        (matmul dot_S1x768_S2048x768_S1x2048_1_1_0_0_n_n none (truncf .bf16 A bitsLt_bf16_f32) (truncf .bf16 K bitsLt_bf16_f32)
          (constant (F := Ideal) S1x2048 .f32 0x00000000#32))
        broadcasts_S1x2048_S5x2048) (ix2 a t)
      = x3 (ix2 a t) + ∑ d : Fin 768, A (ix2 (0 : Fin 1) d) * K (ix2 t d) := by
  rw [addf_apply, broadcastTo_1b_ab_apply, matmul_row_apply]
  simp only [truncf_apply]

/-! ## The softmax over the positions -/

section Softmax

theorem exp_apply {s : Shape} {φ : FTy} (v : FVec Ideal s φ) (i : s.Idx) : exp v i = Ideal.exp (v i) := rfl

/-- A row's maximum as the payload takes it: folded along the row from −∞, then once more against the −∞ splat. -/
theorem row_max_apply (Z : FVec Ideal S5x2048 .f32) (hφ : FKind.Formats .f32)
    (hacc : (0xFF800000#32 : BitVec (FTy.bits .f32)) = FKind.maximumf.neutral .f32 hφ) (a : Fin 5) :
    maximumf (broadcast S5 (Scalar.ofBits .f32 0xFF800000#32))
        (multiReduction (F := Ideal) .maximumf [1] S5 Z 0xFF800000#32 reduces_S5x2048_S5 hφ hacc) (ix1 a)
      = Spec.rowMax (fun t => Z (ix2 a t)) := by
  rw [maximumf_apply, broadcast_apply, max_axis1_apply]
  rfl

/-- A block minus a per-row value stood up as a column and spread along the rows, exponentiated, at (a, t). -/
theorem shifted_exp_apply (Z : FVec Ideal S5x2048 .f32) (R : FVec Ideal S5 .f32) (a : Fin 5) (t : Fin 2048) :
    exp (subf Z (broadcastTo S5x2048 (shapeCast S5x1 R shapeCasts_S5_S5x1) broadcasts_S5x1_S5x2048)) (ix2 a t)
      = Ideal.exp (Z (ix2 a t) - R (ix1 a)) := by
  rw [exp_apply, subf_apply, broadcastTo_a1_ab_apply, shapeCast_a_a1_apply]

/-- The last stretch of the payload over any score block Z: at (0, a, t) it is the softmax of Z's row a at t. -/
theorem softmax_tail_apply (Z : FVec Ideal S5x2048 .f32) (hφ : FKind.Formats .f32)
    (hmax : (0xFF800000#32 : BitVec (FTy.bits .f32)) = FKind.maximumf.neutral .f32 hφ)
    (hadd : (0x00000000#32 : BitVec (FTy.bits .f32)) = FKind.add.neutral .f32 hφ) (a : Fin 5) (t : Fin 2048) :
    shapeCast S1x5x2048
        (divf
          (exp (subf Z (broadcastTo S5x2048 (shapeCast S5x1
            (maximumf (broadcast S5 (Scalar.ofBits .f32 0xFF800000#32))
              (multiReduction (F := Ideal) .maximumf [1] S5 Z 0xFF800000#32 reduces_S5x2048_S5 hφ hmax))
            shapeCasts_S5_S5x1) broadcasts_S5x1_S5x2048)))
          (broadcastTo S5x2048 (shapeCast S5x1
            (multiReduction (F := Ideal) .add [1] S5
              (exp (subf Z (broadcastTo S5x2048 (shapeCast S5x1
                (maximumf (broadcast S5 (Scalar.ofBits .f32 0xFF800000#32))
                  (multiReduction (F := Ideal) .maximumf [1] S5 Z 0xFF800000#32 reduces_S5x2048_S5 hφ hmax))
                shapeCasts_S5_S5x1) broadcasts_S5x1_S5x2048)))
              0x00000000#32 reduces_S5x2048_S5 hφ hadd)
            shapeCasts_S5_S5x1) broadcasts_S5x1_S5x2048))
        shapeCasts_S5x2048_S1x5x2048 (ix3 (0 : Fin 1) a t)
      = Spec.smax (fun t => Z (ix2 a t)) t := by
  rw [shapeCast_ab_1ab_apply, divf_apply, broadcastTo_a1_ab_apply, shapeCast_a_a1_apply, sum_axis1_apply,
    shifted_exp_apply, row_max_apply]
  unfold Spec.smax
  refine congrArg (Ideal.div _) (Finset.sum_congr rfl fun k _ => ?_)
  rw [shifted_exp_apply, row_max_apply]

end Softmax

/-! ## The payload -/

theorem attn_payload (x0 x1 : Vec Ideal S1x2048x768 .f32) (x2 : Vec Ideal S1x2048x1 .f32) (x3 : Vec Ideal S5x2048 .f32)
    (a : Fin 5) (t : Fin 2048) :
    k0_pay1 (F := Ideal) x0 x1 x2 x3 (ix3 (0 : Fin 1) a t)
      = Spec.attn (fun t d => x0 (ix3 (0 : Fin 1) t d)) (fun t d => x1 (ix3 (0 : Fin 1) t d))
          (fun t => x2 (ix3 (0 : Fin 1) t (0 : Fin 1))) (fun a t => x3 (ix2 a t)) a t := by
  unfold k0_pay1
  refine (softmax_tail_apply _ _ _ _ a t).trans ?_
  unfold Spec.attn
  refine congrArg (fun z => Spec.smax z t) (funext fun t' => ?_)
  rw [score_entry_apply]
  unfold Spec.score
  refine congrArg (x3 (ix2 a t') + ·) (Finset.sum_congr rfl fun d _ => ?_)
  exact congrArg₂ (· * ·) (agent_row_apply x0 x2 _ _ d) (shapeCast_1ab_ab_apply x1 _ t' d)

end Cert.KernelIdeal.Body

end
-- ==== Proof.KArrays0.lean ====
/-
  From blocks to arrays. Each kernel runs once per batch b, on block b of every batched array, and writes block b of
  its result; the blocks tile the result, so the result array is one function of the arrays the kernel reads:
  the first kernel's result at (b, a, t) is the attention of batch b, the second's at (b, t, d) is the output of
  batch b from the value block, the table over the agents and the first kernel's attention block.
-/
import proofs.«136177_j1838246003405_1_alg».proof.Proof.Gen.KernelIdeal.Frame
import proofs.«136177_j1838246003405_1_alg».proof.Proof.KBody0
import proofs.«136177_j1838246003405_1_alg».proof.Proof.Spec
import Idealize.ShloMosaic.Lib.ValueIdx
import Idealize.ShloMosaic.Lib.Pipeline.Value

noncomputable section

namespace Cert.KernelIdeal.Arrays

open Idealize.ShloMosaic Idealize.ShloMosaic.ValueIdx Idealize.ShloMosaic.TcCoe Idealize.SL.Sem Cert.KernelIdeal
open Idealize.ShloMosaic.Pipeline (Dat Cfg Window)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The first kernel: the attention array -/

/-- The batch a grid point works on. -/
def batch0 (t : Fin cfg0.N) : Fin 16 := ⟨t.val, lt_of_lt_of_eq t.isLt Gen.N_0⟩

/-- The printed index maps over the grid: every batched window sits at block (t, 0, 0), the shared bias at (0, 0). -/
theorem index_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The attention at batch b, agent a, position t, from the arrays the first kernel reads. -/
def attnAt (c : Dev nD) (b : Fin 16) (a : Fin 5) (t : Fin 2048) : EReal :=
  Spec.attn (fun t d => V c main_v1 (ix3 b t d)) (fun t d => V c main_v3 (ix3 b t d)) (fun t => V c main_v9 (ix3 b t (0 : Fin 1)))
    (fun a t => V c main_arg2 (ix2 a t)) a t

/-- The attention array. -/
def attnArr (c : Dev nD) : S16x5x2048.Idx → EReal := fun i =>
  attnAt V c ⟨(i 0).val, (i 0).isLt⟩ ⟨(i 1).val, (i 1).isLt⟩ ⟨(i 2).val, (i 2).isLt⟩

theorem attnAt_congr (c : Dev nD) {b b' : Fin 16} {a a' : Fin 5} {t t' : Fin 2048} (hb : b = b') (ha : a = a') (ht : t = t') :
    attnAt V c b a t = attnAt V c b' a' t' := by subst hb ha ht; rfl

theorem query_block (c : Dev nD) (t : Fin cfg0.N) (t' : Fin 2048) (d : Fin 768) :
    Gen.iblk0 V c 0 t (ix3 (0 : Fin 1) t' d) = V c main_v1 (ix3 (batch0 t) t' d) := by
  obtain ⟨e0, e1, e2, -⟩ := index_facts0 t
  show V c main_v1 (((cfg0.win 0).blk t).view.emb (ix3 (0 : Fin 1) t' d)) = _
  refine congrArg (V c main_v1) (funext fun a => Fin.ext ?_)
  match a with
  | ⟨0, _⟩ => show win0_0.index t (0 : Fin 3) * 1 + 1 * 0 = t.val; omega
  | ⟨1, _⟩ => show win0_0.index t (1 : Fin 3) * 2048 + 1 * t'.val = t'.val; omega
  | ⟨2, _⟩ => show win0_0.index t (2 : Fin 3) * 768 + 1 * d.val = d.val; omega

theorem key_block (c : Dev nD) (t : Fin cfg0.N) (t' : Fin 2048) (d : Fin 768) :
    Gen.iblk0 V c 1 t (ix3 (0 : Fin 1) t' d) = V c main_v3 (ix3 (batch0 t) t' d) := by
  obtain ⟨-, -, -, e0, e1, e2, -⟩ := index_facts0 t
  show V c main_v3 (((cfg0.win 1).blk t).view.emb (ix3 (0 : Fin 1) t' d)) = _
  refine congrArg (V c main_v3) (funext fun a => Fin.ext ?_)
  match a with
  | ⟨0, _⟩ => show win0_1.index t (0 : Fin 3) * 1 + 1 * 0 = t.val; omega
  | ⟨1, _⟩ => show win0_1.index t (1 : Fin 3) * 2048 + 1 * t'.val = t'.val; omega
  | ⟨2, _⟩ => show win0_1.index t (2 : Fin 3) * 768 + 1 * d.val = d.val; omega

theorem mask_block (c : Dev nD) (t : Fin cfg0.N) (t' : Fin 2048) :
    Gen.iblk0 V c 2 t (ix3 (0 : Fin 1) t' (0 : Fin 1)) = V c main_v9 (ix3 (batch0 t) t' (0 : Fin 1)) := by
  obtain ⟨-, -, -, -, -, -, e0, e1, e2, -⟩ := index_facts0 t
  show V c main_v9 (((cfg0.win 2).blk t).view.emb (ix3 (0 : Fin 1) t' (0 : Fin 1))) = _
  refine congrArg (V c main_v9) (funext fun a => Fin.ext ?_)
  match a with
  | ⟨0, _⟩ => show win0_2.index t (0 : Fin 3) * 1 + 1 * 0 = t.val; omega
  | ⟨1, _⟩ => show win0_2.index t (1 : Fin 3) * 2048 + 1 * t'.val = t'.val; omega
  | ⟨2, _⟩ => show win0_2.index t (2 : Fin 3) * 1 + 1 * 0 = 0; omega

theorem bias_block (c : Dev nD) (t : Fin cfg0.N) (a : Fin 5) (t' : Fin 2048) :
    Gen.iblk0 V c 3 t (ix2 a t') = V c main_arg2 (ix2 a t') := by
  obtain ⟨-, -, -, -, -, -, -, -, -, e0, e1, -⟩ := index_facts0 t
  show V c main_arg2 (((cfg0.win 3).blk t).view.emb (ix2 a t')) = _
  refine congrArg (V c main_arg2) (funext fun x => Fin.ext ?_)
  match x with
  | ⟨0, _⟩ => show win0_3.index t (0 : Fin 2) * 5 + 1 * a.val = a.val; omega
  | ⟨1, _⟩ => show win0_3.index t (1 : Fin 2) * 2048 + 1 * t'.val = t'.val; omega

/-- WHAT POINT t WRITES BACK is block t of the attention array. -/
theorem flushed_attn (c : Dev nD) (t : Fin cfg0.N) :
    (Gen.dat0 V c).flushed 4 t = ((cfg0.win 4).blk t).view.read (Elt Ideal) (attnArr V c) := by
  show (cfg0.win 4).cut (grid0.coords t) ((Gen.dat0 V c).after 4 t) = _
  rw [Gen.after0_4]
  unfold Gen.out0_4
  rw [View.canon_unit_zero zeros3]
  simp only [View.ld_unit_zero (S := S1x2048x768) zeros3, View.ld_unit_zero (S := S1x2048x1) zeros3,
    View.ld_unit_zero (S := S5x2048) zeros2]
  funext j
  obtain ⟨p, a, t', rfl⟩ : ∃ (p : Fin 1) (a : Fin 5) (t' : Fin 2048), j = ix3 p a t' := ⟨j 0, j 1, j 2, eq_ix3 j⟩
  obtain rfl : p = 0 := Subsingleton.elim _ _
  refine (Body.attn_payload (Gen.iblk0 V c 0 t) (Gen.iblk0 V c 1 t) (Gen.iblk0 V c 2 t) (Gen.iblk0 V c 3 t) a t').trans ?_
  obtain ⟨-, -, -, -, -, -, -, -, -, -, -, e0, e1, e2⟩ := index_facts0 t
  have hi : attnArr V c (((cfg0.win 4).blk t).view.emb (ix3 (0 : Fin 1) a t')) = attnAt V c (batch0 t) a t' := by
    unfold attnArr
    refine attnAt_congr V c (Fin.ext ?_) (Fin.ext ?_) (Fin.ext ?_)
    · show win0_4.index t (0 : Fin 3) * 1 + 1 * 0 = t.val; omega
    · show win0_4.index t (1 : Fin 3) * 5 + 1 * a.val = a.val; omega
    · show win0_4.index t (2 : Fin 3) * 2048 + 1 * t'.val = t'.val; omega
  refine Eq.trans ?_ hi.symm
  unfold attnAt
  simp only [query_block, key_block, mask_block, bias_block]

/-- An index of the array is in point t's block iff each coordinate is in the block's range on its axis. -/
theorem mem_block_attn (t : Fin cfg0.N) (i : S16x5x2048.Idx) :
    i ∈ ((cfg0.win 4).blk t).view.set ↔ ∀ a : Fin 3, win0_4.index t a * S1x5x2048.size a ≤ (i a).val ∧ (i a).val < win0_4.index t a * S1x5x2048.size a + S1x5x2048.size a := by
  show i ∈ ((View.whole main_v21).slice (win0_4.rect t)).set ↔ _
  rw [View.set_slice_whole, Rect.mem_set_unit]
  exact Iff.rfl

/-- Every entry of the attention array is in the block of its batch's point. -/
theorem cover_attn (i : S16x5x2048.Idx) : ∃ t : Fin cfg0.N, (cfg0.win 4).flush t = true ∧ i ∈ ((cfg0.win 4).blk t).view.set := by
  have h0 : (i 0).val < 16 := (i 0).isLt
  have h1 : (i 1).val < 5 := (i 1).isLt
  have h2 : (i 2).val < 2048 := (i 2).isLt
  refine ⟨⟨(i 0).val, lt_of_lt_of_eq h0 Gen.N_0.symm⟩, Gen.flush0_4 _, ?_⟩
  rw [mem_block_attn]
  obtain ⟨-, -, -, -, -, -, -, -, -, -, -, e0, e1, e2⟩ := index_facts0 ⟨(i 0).val, lt_of_lt_of_eq h0 Gen.N_0.symm⟩
  intro a
  match a with
  | ⟨0, _⟩ => show win0_4.index _ (0 : Fin 3) * 1 ≤ (i 0).val ∧ (i 0).val < win0_4.index _ (0 : Fin 3) * 1 + 1; rw [e0]; show (i 0).val * 1 ≤ (i 0).val ∧ (i 0).val < (i 0).val * 1 + 1; omega
  | ⟨1, _⟩ => show win0_4.index _ (1 : Fin 3) * 5 ≤ (i 1).val ∧ (i 1).val < win0_4.index _ (1 : Fin 3) * 5 + 5; rw [e1]; omega
  | ⟨2, _⟩ => show win0_4.index _ (2 : Fin 3) * 2048 ≤ (i 2).val ∧ (i 2).val < win0_4.index _ (2 : Fin 3) * 2048 + 2048; rw [e2]; omega

/-- THE ATTENTION ARRAY after the first kernel's run, entry by entry. -/
theorem attn_array (c : Dev nD) (b : Fin 16) (a : Fin 5) (t : Fin 2048) :
    (Gen.dat0 V c).arrAt 4 cfg0.N (ix3 b a t) = attnAt V c b a t :=
  congrFun ((Gen.dat0 V c).arrAt_eq_of_cover 4 (attnArr V c) (fun t _ => flushed_attn V c t) cover_attn) (ix3 b a t)

end Cert.KernelIdeal.Arrays

end
-- ==== Proof.KBody1.lean ====
/-
  The second kernel's stored value read at an entry: at position t and feature d of its 2048 × 768 block it is
  ∑ₐ qattn t a · (∑ₜ' attn a t' · v t' d), the two matrix products of the body as plain sums.
-/
import proofs.«136177_j1838246003405_1_alg».proof.Proof.Gen.KernelIdeal.Skeleton
import proofs.«136177_j1838246003405_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

/-! ## The first product: 5 × 2048 times 2048 × 768, contracting the 2048 positions -/

/-- The left operand's row axis reads the output's row. -/
theorem dotA_lhs_0 (j : S5x768.Idx) (q : dot_S5x2048_S2048x768_S5x768_1_0_0_1_n_n.contr.Idx) :
    (dot_S5x2048_S2048x768_S5x768_1_0_0_1_n_n.lhsIdx j q 0).val = (j 0).val := by
  unfold DotDims.lhsIdx
  rw [dif_neg (show ¬(0 : Fin S5x2048.rank) ∈ dot_S5x2048_S2048x768_S5x768_1_0_0_1_n_n.lhsBatch by decide),
    dif_pos (show (0 : Fin S5x2048.rank) ∈ dot_S5x2048_S2048x768_S5x768_1_0_0_1_n_n.lhsNonContracting by decide)]
  rfl

/-- The left operand's column axis reads the contraction position. -/
theorem dotA_lhs_1 (j : S5x768.Idx) (q : dot_S5x2048_S2048x768_S5x768_1_0_0_1_n_n.contr.Idx) :
    (dot_S5x2048_S2048x768_S5x768_1_0_0_1_n_n.lhsIdx j q 1).val = (q ⟨0, by decide⟩).val :=
  dot_S5x2048_S2048x768_S5x768_1_0_0_1_n_n.lhsIdx_val_of_single rfl j q

/-- The right operand's row axis reads the contraction position. -/
theorem dotA_rhs_0 (j : S5x768.Idx) (q : dot_S5x2048_S2048x768_S5x768_1_0_0_1_n_n.contr.Idx) :
    (dot_S5x2048_S2048x768_S5x768_1_0_0_1_n_n.rhsIdx j q 0).val = (q ⟨0, by decide⟩).val :=
  dot_S5x2048_S2048x768_S5x768_1_0_0_1_n_n.rhsIdx_val_of_single rfl j q

/-- The right operand's column axis reads the output's column. -/
theorem dotA_rhs_1 (j : S5x768.Idx) (q : dot_S5x2048_S2048x768_S5x768_1_0_0_1_n_n.contr.Idx) :
    (dot_S5x2048_S2048x768_S5x768_1_0_0_1_n_n.rhsIdx j q 1).val = (j 1).val := by
  unfold DotDims.rhsIdx
  rw [dif_neg (show ¬(1 : Fin S2048x768.rank) ∈ dot_S5x2048_S2048x768_S5x768_1_0_0_1_n_n.rhsBatch by decide),
    dif_pos (show (1 : Fin S2048x768.rank) ∈ dot_S5x2048_S2048x768_S5x768_1_0_0_1_n_n.rhsNonContracting by decide)]
  rfl

/-- Into a zero accumulator the first product at (a, d) is ∑ₖ l a k · r k d. -/
theorem dotA_apply {φ₁ φ₂ : FTy} (l : FVec Ideal S5x2048 φ₁) (r : FVec Ideal S2048x768 φ₂) (a : Fin 5) (d : Fin 768) :
    FloatOps.matmul dot_S5x2048_S2048x768_S5x768_1_0_0_1_n_n none l r (constant S5x768 .f32 0x00000000#32) (ix2 a d)
      = ∑ k : Fin 2048, l (ix2 a k) * r (ix2 k d) := by
  rw [Ideal.matmul_constant_zero_apply,
    ← Equiv.sum_comp (contrEquiv1 dot_S5x2048_S2048x768_S5x768_1_0_0_1_n_n 2048 rfl rfl).symm]
  refine Finset.sum_congr rfl fun k _ => ?_
  have hk := contrEquiv1_symm_val dot_S5x2048_S2048x768_S5x768_1_0_0_1_n_n 2048 rfl rfl k
  have el : dot_S5x2048_S2048x768_S5x768_1_0_0_1_n_n.lhsIdx (ix2 a d)
      ((contrEquiv1 dot_S5x2048_S2048x768_S5x768_1_0_0_1_n_n 2048 rfl rfl).symm k) = ix2 a k :=
    funext fun c => Fin.ext (by
      match c with
      | ⟨0, _⟩ => exact dotA_lhs_0 _ _
      | ⟨1, _⟩ => exact (dotA_lhs_1 _ _).trans hk)
  have er : dot_S5x2048_S2048x768_S5x768_1_0_0_1_n_n.rhsIdx (ix2 a d)
      ((contrEquiv1 dot_S5x2048_S2048x768_S5x768_1_0_0_1_n_n 2048 rfl rfl).symm k) = ix2 k d :=
    funext fun c => Fin.ext (by
      match c with
      | ⟨0, _⟩ => exact (dotA_rhs_0 _ _).trans hk
      | ⟨1, _⟩ => exact dotA_rhs_1 _ _)
  rw [el, er]

/-! ## The second product: 2048 × 5 times 5 × 768, contracting the five agents -/

/-- The left operand's row axis reads the output's row. -/
theorem dotB_lhs_0 (j : S2048x768.Idx) (q : dot_S2048x5_S5x768_S2048x768_1_0_0_1_n_n.contr.Idx) :
    (dot_S2048x5_S5x768_S2048x768_1_0_0_1_n_n.lhsIdx j q 0).val = (j 0).val := by
  unfold DotDims.lhsIdx
  rw [dif_neg (show ¬(0 : Fin S2048x5.rank) ∈ dot_S2048x5_S5x768_S2048x768_1_0_0_1_n_n.lhsBatch by decide),
    dif_pos (show (0 : Fin S2048x5.rank) ∈ dot_S2048x5_S5x768_S2048x768_1_0_0_1_n_n.lhsNonContracting by decide)]
  rfl

/-- The left operand's column axis reads the contraction position. -/
theorem dotB_lhs_1 (j : S2048x768.Idx) (q : dot_S2048x5_S5x768_S2048x768_1_0_0_1_n_n.contr.Idx) :
    (dot_S2048x5_S5x768_S2048x768_1_0_0_1_n_n.lhsIdx j q 1).val = (q ⟨0, by decide⟩).val :=
  dot_S2048x5_S5x768_S2048x768_1_0_0_1_n_n.lhsIdx_val_of_single rfl j q

/-- The right operand's row axis reads the contraction position. -/
theorem dotB_rhs_0 (j : S2048x768.Idx) (q : dot_S2048x5_S5x768_S2048x768_1_0_0_1_n_n.contr.Idx) :
    (dot_S2048x5_S5x768_S2048x768_1_0_0_1_n_n.rhsIdx j q 0).val = (q ⟨0, by decide⟩).val :=
  dot_S2048x5_S5x768_S2048x768_1_0_0_1_n_n.rhsIdx_val_of_single rfl j q

/-- The right operand's column axis reads the output's column. -/
theorem dotB_rhs_1 (j : S2048x768.Idx) (q : dot_S2048x5_S5x768_S2048x768_1_0_0_1_n_n.contr.Idx) :
    (dot_S2048x5_S5x768_S2048x768_1_0_0_1_n_n.rhsIdx j q 1).val = (j 1).val := by
  unfold DotDims.rhsIdx
  rw [dif_neg (show ¬(1 : Fin S5x768.rank) ∈ dot_S2048x5_S5x768_S2048x768_1_0_0_1_n_n.rhsBatch by decide),
    dif_pos (show (1 : Fin S5x768.rank) ∈ dot_S2048x5_S5x768_S2048x768_1_0_0_1_n_n.rhsNonContracting by decide)]
  rfl

/-- Into a zero accumulator the second product at (t, d) is ∑ₐ l t a · r a d. -/
theorem dotB_apply {φ₁ φ₂ : FTy} (l : FVec Ideal S2048x5 φ₁) (r : FVec Ideal S5x768 φ₂) (t : Fin 2048) (d : Fin 768) :
    FloatOps.matmul dot_S2048x5_S5x768_S2048x768_1_0_0_1_n_n none l r (constant S2048x768 .f32 0x00000000#32) (ix2 t d)
      = ∑ a : Fin 5, l (ix2 t a) * r (ix2 a d) := by
  rw [Ideal.matmul_constant_zero_apply,
    ← Equiv.sum_comp (contrEquiv1 dot_S2048x5_S5x768_S2048x768_1_0_0_1_n_n 5 rfl rfl).symm]
  refine Finset.sum_congr rfl fun k _ => ?_
  have hk := contrEquiv1_symm_val dot_S2048x5_S5x768_S2048x768_1_0_0_1_n_n 5 rfl rfl k
  have el : dot_S2048x5_S5x768_S2048x768_1_0_0_1_n_n.lhsIdx (ix2 t d)
      ((contrEquiv1 dot_S2048x5_S5x768_S2048x768_1_0_0_1_n_n 5 rfl rfl).symm k) = ix2 t k :=
    funext fun c => Fin.ext (by
      match c with
      | ⟨0, _⟩ => exact dotB_lhs_0 _ _
      | ⟨1, _⟩ => exact (dotB_lhs_1 _ _).trans hk)
  have er : dot_S2048x5_S5x768_S2048x768_1_0_0_1_n_n.rhsIdx (ix2 t d)
      ((contrEquiv1 dot_S2048x5_S5x768_S2048x768_1_0_0_1_n_n 5 rfl rfl).symm k) = ix2 k d :=
    funext fun c => Fin.ext (by
      match c with
      | ⟨0, _⟩ => exact (dotB_rhs_0 _ _).trans hk
      | ⟨1, _⟩ => exact dotB_rhs_1 _ _)
  rw [el, er]

/-! ## The stored value -/

theorem out_payload (v0 : Vec Ideal S1x2048x768 .f32) (v2 : Vec Ideal S1x5x2048 .f32) (v4 : Vec Ideal S2048x5 .f32)
    (t : Fin 2048) (d : Fin 768) :
    k1_pay1 (F := Ideal) v0 v2 v4 (ix3 (0 : Fin 1) t d)
      = Spec.outOf (fun t d => v0 (ix3 (0 : Fin 1) t d)) (fun t a => v4 (ix2 t a)) (fun a t => v2 (ix3 (0 : Fin 1) a t)) t d := by
  unfold k1_pay1 Spec.outOf Spec.agentV
  simp only [matmul]
  rw [shapeCast_ab_1ab_apply, dotB_apply]
  refine Finset.sum_congr rfl fun a _ => ?_
  rw [truncf_apply, truncf_apply, shapeCast_self, dotA_apply]
  refine congrArg _ (Finset.sum_congr rfl fun k _ => ?_)
  rw [truncf_apply, truncf_apply, shapeCast_1ab_ab_apply, shapeCast_1ab_ab_apply]

end Cert.KernelIdeal.Body

end
-- ==== Proof.KArrays1.lean ====
/-
  From blocks to the result array. The second kernel runs once per batch b on block b of the value array and of the
  attention array and on the whole table over the agents, and writes block b of the result; the blocks tile the result,
  so at (b, t, d) the result is ∑ₐ qattn t a · (∑ₜ' attn b a t' · v b t' d) of the arrays the kernel reads.
-/
import proofs.«136177_j1838246003405_1_alg».proof.Proof.Gen.KernelIdeal.Frame
import proofs.«136177_j1838246003405_1_alg».proof.Proof.KBody1
import proofs.«136177_j1838246003405_1_alg».proof.Proof.Spec
import Idealize.ShloMosaic.Lib.ValueIdx
import Idealize.ShloMosaic.Lib.Pipeline.Value

noncomputable section

namespace Cert.KernelIdeal.Arrays

open Idealize.ShloMosaic Idealize.ShloMosaic.ValueIdx Idealize.ShloMosaic.TcCoe Idealize.SL.Sem Cert.KernelIdeal
open Idealize.ShloMosaic.Pipeline (Dat Cfg Window)

variable (V : (c : Dev nD) → (b : Ref sig .tc) → Buf (Elt Ideal) ((c : Thread nD τ).loc b))

/-- The result at batch b, position t, feature d, from the arrays the second kernel reads. -/
def outAt (c : Dev nD) (b : Fin 16) (t : Fin 2048) (d : Fin 768) : EReal :=
  Spec.outOf (fun t d => V c main_v5 (ix3 b t d)) (fun t a => V c main_v20 (ix2 t a)) (fun a t => V c main_v21 (ix3 b a t)) t d

/-! ## The grid and the windows' index maps -/

theorem zeros3_1 : (![0, 0, 0] : Fin 3 → Nat) = fun _ => 0 := funext fun a => by fin_cases a <;> rfl
theorem zeros2_1 : (![0, 0] : Fin 2 → Nat) = fun _ => 0 := funext fun a => by fin_cases a <;> rfl

/-- The batch a grid point of the second kernel works on. -/
def batch1 (t : Fin cfg1.N) : Fin 16 := ⟨t.val, lt_of_lt_of_eq t.isLt Gen.N_1⟩

/-- The printed index maps over the grid: every batched window sits at block (t, 0, 0), the shared table at (0, 0). -/
theorem index_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- The result array as one function of the arrays the second kernel reads. -/
def outArr (c : Dev nD) : S16x2048x768.Idx → EReal := fun i =>
  outAt V c ⟨(i 0).val, (i 0).isLt⟩ ⟨(i 1).val, (i 1).isLt⟩ ⟨(i 2).val, (i 2).isLt⟩

/-! ## The input blocks at a grid point -/

/-- The value block at point t is batch t of the value array. -/
theorem value_in_block (c : Dev nD) (t : Fin cfg1.N) (t' : Fin 2048) (d : Fin 768) :
    Gen.iblk1 V c 0 t (ix3 (0 : Fin 1) t' d) = V c main_v5 (ix3 (batch1 t) t' d) := by
  obtain ⟨e0, e1, e2, -⟩ := index_facts1 t
  show V c main_v5 (((cfg1.win 0).blk t).view.emb (ix3 (0 : Fin 1) t' d)) = _
  refine congrArg (V c main_v5) (funext fun a => Fin.ext ?_)
  match a with
  | ⟨0, _⟩ => show win1_0.index t (0 : Fin 3) * 1 + 1 * 0 = t.val; omega
  | ⟨1, _⟩ => show win1_0.index t (1 : Fin 3) * 2048 + 1 * t'.val = t'.val; omega
  | ⟨2, _⟩ => show win1_0.index t (2 : Fin 3) * 768 + 1 * d.val = d.val; omega

/-- The attention block at point t is batch t of the attention array. -/
theorem attn_in_block (c : Dev nD) (t : Fin cfg1.N) (a : Fin 5) (t' : Fin 2048) :
    Gen.iblk1 V c 1 t (ix3 (0 : Fin 1) a t') = V c main_v21 (ix3 (batch1 t) a t') := by
  obtain ⟨-, -, -, e0, e1, e2, -⟩ := index_facts1 t
  show V c main_v21 (((cfg1.win 1).blk t).view.emb (ix3 (0 : Fin 1) a t')) = _
  refine congrArg (V c main_v21) (funext fun x => Fin.ext ?_)
  match x with
  | ⟨0, _⟩ => show win1_1.index t (0 : Fin 3) * 1 + 1 * 0 = t.val; omega
  | ⟨1, _⟩ => show win1_1.index t (1 : Fin 3) * 5 + 1 * a.val = a.val; omega
  | ⟨2, _⟩ => show win1_1.index t (2 : Fin 3) * 2048 + 1 * t'.val = t'.val; omega

/-- The table over the agents is read whole at every point. -/
theorem table_in_block (c : Dev nD) (t : Fin cfg1.N) (t' : Fin 2048) (a : Fin 5) :
    Gen.iblk1 V c 2 t (ix2 t' a) = V c main_v20 (ix2 t' a) := by
  obtain ⟨-, -, -, -, -, -, e0, e1, -⟩ := index_facts1 t
  show V c main_v20 (((cfg1.win 2).blk t).view.emb (ix2 t' a)) = _
  refine congrArg (V c main_v20) (funext fun x => Fin.ext ?_)
  match x with
  | ⟨0, _⟩ => show win1_2.index t (0 : Fin 2) * 2048 + 1 * t'.val = t'.val; omega
  | ⟨1, _⟩ => show win1_2.index t (1 : Fin 2) * 5 + 1 * a.val = a.val; omega

/-! ## What a grid point writes back -/

/-- Point t's block of the result array starts at batch t. -/
theorem out_block_emb (t : Fin cfg1.N) (t' : Fin 2048) (d : Fin 768) :
    ((cfg1.win 3).blk t).view.emb (ix3 (0 : Fin 1) t' d) = ix3 (batch1 t) t' d := by
  obtain ⟨-, -, -, -, -, -, -, -, e0, e1, e2⟩ := index_facts1 t
  refine funext fun a => Fin.ext ?_
  match a with
  | ⟨0, _⟩ => show win1_3.index t (0 : Fin 3) * 1 + 1 * 0 = t.val; omega
  | ⟨1, _⟩ => show win1_3.index t (1 : Fin 3) * 2048 + 1 * t'.val = t'.val; omega
  | ⟨2, _⟩ => show win1_3.index t (2 : Fin 3) * 768 + 1 * d.val = d.val; omega

/-- The body's result on point t's input blocks, at (t', d), is the result of batch t there. -/
theorem payload_at_point (c : Dev nD) (t : Fin cfg1.N) (t' : Fin 2048) (d : Fin 768) :
    Gen.k1_pay1 (F := Ideal) (Gen.iblk1 V c 0 t) (Gen.iblk1 V c 1 t) (Gen.iblk1 V c 2 t) (ix3 (0 : Fin 1) t' d)
      = outAt V c (batch1 t) t' d := by
  refine (Body.out_payload (Gen.iblk1 V c 0 t) (Gen.iblk1 V c 1 t) (Gen.iblk1 V c 2 t) t' d).trans ?_
  unfold outAt
  simp only [value_in_block, attn_in_block, table_in_block]

/-- WHAT POINT t WRITES BACK is block t of the result array's function. -/
theorem flushed_eq1 (c : Dev nD) (t : Fin cfg1.N) :
    (Gen.dat1 V c).flushed 3 t = ((cfg1.win 3).blk t).view.read (Elt Ideal) (outArr V c) := by
  show (cfg1.win 3).cut (grid1.coords t) ((Gen.dat1 V c).after 3 t) = _
  rw [Gen.after1_3]
  unfold Gen.out1_3
  rw [View.canon_unit_zero zeros3_1]
  simp only [View.ld_unit_zero (S := S1x2048x768) zeros3_1, View.ld_unit_zero (S := S1x5x2048) zeros3_1,
    View.ld_unit_zero (S := S2048x5) zeros2_1]
  funext j
  obtain ⟨p, t', d, rfl⟩ : ∃ (p : Fin 1) (t' : Fin 2048) (d : Fin 768), j = ix3 p t' d := ⟨j 0, j 1, j 2, eq_ix3 j⟩
  obtain rfl : p = 0 := Subsingleton.elim _ _
  show Gen.k1_pay1 (F := Ideal) (Gen.iblk1 V c 0 t) (Gen.iblk1 V c 1 t) (Gen.iblk1 V c 2 t) (ix3 (0 : Fin 1) t' d)
    = outArr V c (((cfg1.win 3).blk t).view.emb (ix3 (0 : Fin 1) t' d))
  rw [out_block_emb]
  exact payload_at_point V c t t' d

/-! ## The blocks tile the result array -/

/-- An index of the array is in point t's block iff each coordinate is in the block's range on its axis. -/
theorem mem_out_block (t : Fin cfg1.N) (i : S16x2048x768.Idx) :
    i ∈ ((cfg1.win 3).blk t).view.set ↔ ∀ a : Fin 3, win1_3.index t a * S1x2048x768.size a ≤ (i a).val
      ∧ (i a).val < win1_3.index t a * S1x2048x768.size a + S1x2048x768.size a := by
  show i ∈ ((View.whole main_v22).slice (win1_3.rect t)).set ↔ _
  rw [View.set_slice_whole, Rect.mem_set_unit]
  exact Iff.rfl

/-- Every index of the result array is in the block of the point of its batch. -/
theorem out_cover (i : S16x2048x768.Idx) :
    ∃ t : Fin cfg1.N, (cfg1.win 3).flush t = true ∧ i ∈ ((cfg1.win 3).blk t).view.set := by
  have hi0 : (i 0).val < 16 := (i 0).isLt
  have hi1 : (i 1).val < 2048 := (i 1).isLt
  have hi2 : (i 2).val < 768 := (i 2).isLt
  obtain ⟨t, ht⟩ : ∃ t : Fin cfg1.N, t.val = (i 0).val := ⟨⟨(i 0).val, lt_of_lt_of_eq hi0 Gen.N_1.symm⟩, rfl⟩
  obtain ⟨-, -, -, -, -, -, -, -, e0, e1, e2⟩ := index_facts1 t
  refine ⟨t, Gen.flush1_3 t, ?_⟩
  rw [mem_out_block]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 2048 ≤ (i 1).val ∧ (i 1).val < win1_3.index t (1 : Fin 3) * 2048 + 2048; omega
  | ⟨2, _⟩ => show win1_3.index t (2 : Fin 3) * 768 ≤ (i 2).val ∧ (i 2).val < win1_3.index t (2 : Fin 3) * 768 + 768; omega

/-- THE RESULT ARRAY after the second kernel's run, entry by entry. -/
theorem out_array (c : Dev nD) (b : Fin 16) (t : Fin 2048) (d : Fin 768) :
    (Gen.dat1 V c).arrAt 3 cfg1.N (ix3 b t d) = outAt V c b t d := by
  have h := (Gen.dat1 V c).arrAt_eq_of_cover 3 (outArr V c) (fun t _ => flushed_eq1 V c t) out_cover
  exact congrFun h (ix3 b t d)

end Cert.KernelIdeal.Arrays

end
-- ==== Proof.KHost.lean ====
/-
  What the kernel program's host operations leave in the arrays the two kernels read, entry by entry:
  the query, key and value arrays are the three slices of the stacked input (entry (b, t, d) of slice s is entry
  (s, b, t, d) of the stack); the mask array holds the number 0 or 1 of "the mask word is not zero" at (b, t, 0); and
  the table over the agents is the softmax of each row of the second bias.
-/
import proofs.«136177_j1838246003405_1_alg».proof.Proof.Gen.KernelIdeal.Frame
import proofs.«136177_j1838246003405_1_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Host

open Idealize.ShloMosaic Idealize.ShloMosaic.ValueIdx Idealize.ShloMosaic.TcCoe Idealize.SL.Sem Idealize.ShloMosaic.StableHlo Cert.KernelIdeal

open Cert.KernelIdeal.Facts₀ Cert.KernelIdeal.Facts

/-! ## The operations' terms read at an entry -/

/-- Slice o of the stack, with its unit axis dropped, at (b, t, d) is the stack at (o, b, t, d). -/
theorem slice_reshape_apply (x : S3x16x2048x768.Idx → EReal) (o : Nat) (ho : o < 3)
    (h : S3x16x2048x768.Slices ![o, 0, 0, 0] S1x16x2048x768) (b : Fin 16) (t : Fin 2048) (d : Fin 768) :
    shapeCast S16x2048x768 (extractStridedSlice S1x16x2048x768 ![o, 0, 0, 0] x h) shapeCasts_S1x16x2048x768_S16x2048x768 (ix3 b t d)
      = x (ix4 (⟨o, ho⟩ : Fin 3) b t d) := by
  refine (shapeCast_apply _ shapeCasts_S1x16x2048x768_S16x2048x768 (ix3 b t d) (ix4 (0 : Fin 1) b t d) (by
    rewrite [Shape.rowMajor_val_four, Shape.rowMajor_val_three]
    show ((0 * 16 + b.val) * 2048 + t.val) * 768 + d.val = (b.val * 2048 + t.val) * 768 + d.val
    omega)).trans ?_
  exact extractStridedSlice_apply _ x h _ (ix4 (⟨o, ho⟩ : Fin 3) b t d) (fun a => match a with
    | ⟨0, _⟩ => by show o = o + 0; omega
    | ⟨1, _⟩ => by show b.val = 0 + b.val; omega
    | ⟨2, _⟩ => by show t.val = 0 + t.val; omega
    | ⟨3, _⟩ => by show d.val = 0 + d.val; omega)

/-- The mask array at (b, t, 0): the bit "the word is not zero" read as a number. -/
theorem mask_apply (x1 : S16x2048.Idx → BitVec 32) (b : Fin 16) (t : Fin 2048) :
    broadcastInDim S16x2048x1 ![0, 1] bcast_S16x2048_S16x2048x1_0_1
        (uitofp (F := Ideal) .f32 (cmpi .ne x1 (broadcastInDim S16x2048 ![] bcast_S_S16x2048 (constantI S_ 32 0#32))))
        (ix3 b t (0 : Fin 1))
      = Spec.maskVal (Spec.keepBit (x1 (ix2 b t))) := by
  refine (broadcastInDim_apply _ bcast_S16x2048_S16x2048x1_0_1 _ (ix3 b t (0 : Fin 1)) (ix2 b t) (fun a => match a with
    | ⟨0, _⟩ => by show b.val = if (16 : Nat) = 1 then 0 else b.val; rw [if_neg (by decide)]
    | ⟨1, _⟩ => by show t.val = if (2048 : Nat) = 1 then 0 else t.val; rw [if_neg (by decide)])).trans ?_
  rfl

/-- A column [2048] laid out as [2048, 1] and repeated along five columns, at (t, a), is the column at t. -/
theorem column_repeat_apply (y : FVec Ideal S2048 .f32) (t : Fin 2048) (a : Fin 5) :
    broadcastInDim S2048x5 ![0, 1] bcast_S2048x1_S2048x5_0_1 (broadcastInDim S2048x1 ![0] bcast_S2048_S2048x1_0 y) (ix2 t a)
      = y (ix1 t) := by
  refine (broadcastInDim_apply _ bcast_S2048x1_S2048x5_0_1 _ (ix2 t a) (ix2 t (0 : Fin 1)) (fun c => match c with
    | ⟨0, _⟩ => by show t.val = if (2048 : Nat) = 1 then 0 else t.val; rw [if_neg (by decide)]
    | ⟨1, _⟩ => by show (0 : Nat) = if (1 : Nat) = 1 then 0 else a.val; rw [if_pos rfl])).trans ?_
  exact broadcastInDim_apply _ bcast_S2048_S2048x1_0 y (ix2 t (0 : Fin 1)) (ix1 t) (fun c => match c with
    | ⟨0, _⟩ => by show t.val = if (2048 : Nat) = 1 then 0 else t.val; rw [if_neg (by decide)])

/-- The rows' maxima of a [2048, 5] table, as the host takes them. -/
def rowMaxArr (x3 : FVec Ideal S2048x5 .f32) : FVec Ideal S2048 .f32 :=
  maximumf (F := Ideal) (broadcastInDim S2048 ![] bcast_S_S2048 (constant (F := Ideal) S_ .f32 0xFF800000#32))
    (Host.reduce FloatOps.maximumf x3 (constant (F := Ideal) S_ .f32 0xFF800000#32) reducesTo_S2048x5_S2048_d1 h_S_)

/-- The exponentials of the entries less their row's maximum. -/
def expArr (x3 : FVec Ideal S2048x5 .f32) : FVec Ideal S2048x5 .f32 :=
  Host.exp (F := Ideal) (subf (F := Ideal) x3
    (broadcastInDim S2048x5 ![0, 1] bcast_S2048x1_S2048x5_0_1 (broadcastInDim S2048x1 ![0] bcast_S2048_S2048x1_0 (rowMaxArr x3))))

/-- The host's softmax of each row. -/
def qattnArr (x3 : FVec Ideal S2048x5 .f32) : FVec Ideal S2048x5 .f32 :=
  Host.divf (F := Ideal) (expArr x3)
    (broadcastInDim S2048x5 ![0, 1] bcast_S2048x1_S2048x5_0_1 (broadcastInDim S2048x1 ![0] bcast_S2048_S2048x1_0
      (Host.reduceAdd (F := Ideal) (expArr x3) (constant (F := Ideal) S_ .f32 0x00000000#32) reducesTo_S2048x5_S2048_d1 h_S_)))

theorem rowMaxArr_apply (x3 : FVec Ideal S2048x5 .f32) (t : Fin 2048) :
    rowMaxArr x3 (ix1 t) = Spec.rowMax (fun a : Fin 5 => x3 (ix2 t a)) := by
  unfold rowMaxArr Spec.rowMax
  rw [maximumf_apply]
  refine congrArg₂ max rfl ?_
  have hr : S2048x5.Reduces [1] S2048 := by decide
  refine (Host.reduce_eq_fold_single FloatOps.maximumf x3 _ reducesTo_S2048x5_S2048_d1 hr h_S_ (ix1 t)).trans ?_
  have hf : (x3 ∘ hr.lift (ix1 t)) = fun a : Fin 5 => x3 (ix2 t a) :=
    funext fun k => congrArg x3 (funext fun c => Fin.ext (by match c with | ⟨0, _⟩ => rfl | ⟨1, _⟩ => rfl))
  rw [hf]
  rfl

theorem expArr_apply (x3 : FVec Ideal S2048x5 .f32) (t : Fin 2048) (a : Fin 5) :
    expArr x3 (ix2 t a) = Ideal.exp (x3 (ix2 t a) - Spec.rowMax (fun a : Fin 5 => x3 (ix2 t a))) := by
  unfold expArr
  show FloatOps.hostUnary .exp (subf (F := Ideal) x3 _ (ix2 t a)) = _
  rw [Ideal.hostUnary_exp_def, subf_apply, column_repeat_apply, rowMaxArr_apply]

theorem qattnArr_apply (x3 : FVec Ideal S2048x5 .f32) (t : Fin 2048) (a : Fin 5) :
    qattnArr x3 (ix2 t a) = Spec.qAttn (fun t a => x3 (ix2 t a)) t a := by
  unfold qattnArr Spec.qAttn
  rw [← Spec.smaxH_eq]
  unfold Spec.smaxH
  show FloatOps.hostDivf (expArr x3 (ix2 t a)) _ = _
  rw [Ideal.hostDivf_def, column_repeat_apply, expArr_apply]
  refine congrArg (Ideal.div _) ?_
  generalize hy : expArr x3 = y
  simp only [Host.reduceAdd, Ideal.hostReduceAdd_def]
  rw [Ideal.hostReduceAdd_single reducesTo_S2048x5_S2048_d1 (by decide)]
  refine congrArg₂ (· + ·) rfl (Finset.sum_congr rfl fun k _ => ?_)
  rw [← hy, ← expArr_apply x3 t k]
  exact congrArg (expArr x3) (funext fun c => Fin.ext (by match c with | ⟨0, _⟩ => rfl | ⟨1, _⟩ => rfl))

/-! ## The arrays as the first kernel finds them -/

variable (m : (ℓ : Loc nD τ sig) → Buf (Elt Ideal) ℓ) (ρ : Dev nD → PrngReg)

theorem V1_query (c : Dev nD) (b : Fin 16) (t : Fin 2048) (d : Fin 768) :
    Gen.V1 m ρ c main_v1 (ix3 b t d) = m ((c : Thread nD τ).loc main_arg0) (ix4 (0 : Fin 3) b t d) := by
  have e : (Gen.V1 m ρ c main_v1 : S16x2048x768.Idx → EReal)
      = shapeCast S16x2048x768 (extractStridedSlice S1x16x2048x768 ![0, 0, 0, 0] (m ((c : Thread nD τ).loc main_arg0)) slices_S3x16x2048x768_S1x16x2048x768_0_0_0_0) shapeCasts_S1x16x2048x768_S16x2048x768 := by
    show StableHlo.after Gen.hostOps0 (Gen.W0 m ρ c) (Proc.devRef .tc main_v1) = _
    after_results_simp <;> rfl
  rw [e]
  exact slice_reshape_apply _ 0 (by decide) _ b t d

theorem V1_key (c : Dev nD) (b : Fin 16) (t : Fin 2048) (d : Fin 768) :
    Gen.V1 m ρ c main_v3 (ix3 b t d) = m ((c : Thread nD τ).loc main_arg0) (ix4 (1 : Fin 3) b t d) := by
  have e : (Gen.V1 m ρ c main_v3 : S16x2048x768.Idx → EReal)
      = shapeCast S16x2048x768 (extractStridedSlice S1x16x2048x768 ![1, 0, 0, 0] (m ((c : Thread nD τ).loc main_arg0)) slices_S3x16x2048x768_S1x16x2048x768_1_0_0_0) shapeCasts_S1x16x2048x768_S16x2048x768 := by
    show StableHlo.after Gen.hostOps0 (Gen.W0 m ρ c) (Proc.devRef .tc main_v3) = _
    after_results_simp <;> rfl
  rw [e]
  exact slice_reshape_apply _ 1 (by decide) _ b t d

theorem V1_value (c : Dev nD) (b : Fin 16) (t : Fin 2048) (d : Fin 768) :
    Gen.V1 m ρ c main_v5 (ix3 b t d) = m ((c : Thread nD τ).loc main_arg0) (ix4 (2 : Fin 3) b t d) := by
  have e : (Gen.V1 m ρ c main_v5 : S16x2048x768.Idx → EReal)
      = shapeCast S16x2048x768 (extractStridedSlice S1x16x2048x768 ![2, 0, 0, 0] (m ((c : Thread nD τ).loc main_arg0)) slices_S3x16x2048x768_S1x16x2048x768_2_0_0_0) shapeCasts_S1x16x2048x768_S16x2048x768 := by
    show StableHlo.after Gen.hostOps0 (Gen.W0 m ρ c) (Proc.devRef .tc main_v5) = _
    after_results_simp <;> rfl
  rw [e]
  exact slice_reshape_apply _ 2 (by decide) _ b t d

theorem V1_mask (c : Dev nD) (b : Fin 16) (t : Fin 2048) :
    Gen.V1 m ρ c main_v9 (ix3 b t (0 : Fin 1)) = Spec.maskVal (Spec.keepBit (m ((c : Thread nD τ).loc main_arg1) (ix2 b t))) := by
  have e : (Gen.V1 m ρ c main_v9 : S16x2048x1.Idx → EReal)
      = broadcastInDim S16x2048x1 ![0, 1] bcast_S16x2048_S16x2048x1_0_1
          (uitofp (F := Ideal) .f32 (cmpi .ne (m ((c : Thread nD τ).loc main_arg1)) (broadcastInDim S16x2048 ![] bcast_S_S16x2048 (constantI S_ 32 0#32)))) := by
    show StableHlo.after Gen.hostOps0 (Gen.W0 m ρ c) (Proc.devRef .tc main_v9) = _
    after_results_simp <;> rfl
  rw [e]
  exact mask_apply _ b t

theorem V1_qattn (c : Dev nD) (t : Fin 2048) (a : Fin 5) :
    Gen.V1 m ρ c main_v20 (ix2 t a) = Spec.qAttn (fun t a => m ((c : Thread nD τ).loc main_arg3) (ix2 t a)) t a := by
  have e : (Gen.V1 m ρ c main_v20 : S2048x5.Idx → EReal) = qattnArr (m ((c : Thread nD τ).loc main_arg3)) := by
    show StableHlo.after Gen.hostOps0 (Gen.W0 m ρ c) (Proc.devRef .tc main_v20) = _
    after_results_simp <;> rfl
  rw [e]
  exact qattnArr_apply _ t a

theorem V1_bias1 (c : Dev nD) : Gen.V1 m ρ c main_arg2 = m ((c : Thread nD τ).loc main_arg2) := by
  show StableHlo.after Gen.hostOps0 (Gen.W0 m ρ c) (Proc.devRef .tc main_arg2) = _
  after_results_simp <;> rfl

end Cert.KernelIdeal.Host

end
-- ==== Proof.KValue.lean ====
/-
  The kernel program's result array, entry by entry, as the specification's function of the four argument arrays:
  the second kernel's array over the first kernel's attention array and the host's slices, mask and table.
-/
import proofs.«136177_j1838246003405_1_alg».proof.Proof.Gen.KernelIdeal.Frame
import proofs.«136177_j1838246003405_1_alg».proof.Proof.KArrays0
import proofs.«136177_j1838246003405_1_alg».proof.Proof.KArrays1
import proofs.«136177_j1838246003405_1_alg».proof.Proof.KHost
import proofs.«136177_j1838246003405_1_alg».proof.Proof.Spec
import Idealize.ShloMosaic.Lib.ValueIdx

noncomputable section

namespace Cert.KernelIdeal.Value

open Idealize.ShloMosaic Idealize.ShloMosaic.ValueIdx Idealize.ShloMosaic.TcCoe Idealize.SL.Sem Cert.KernelIdeal

variable (m : (ℓ : Loc nD τ sig) → Buf (Elt Ideal) ℓ) (ρ : Dev nD → PrngReg)

/-! ## The second kernel's operands at its entry, back to the arguments -/

/-- The value slice is untouched by the first kernel. -/
theorem V2_value (c : Dev nD) (b : Fin 16) (t : Fin 2048) (d : Fin 768) :
    Gen.V2 m ρ c main_v5 (ix3 b t d) = m ((c : Thread nD τ).loc main_arg0) (ix4 (2 : Fin 3) b t d) := by
  rw [show Gen.V2 m ρ c main_v5 = Gen.V1 m ρ c main_v5 from Gen.W2_of_ne m ρ c main_v5 (by decide)]
  exact Host.V1_value m ρ c b t d

/-- The positions' attention table is untouched by the first kernel. -/
theorem V2_qattn (c : Dev nD) (t : Fin 2048) (a : Fin 5) :
    Gen.V2 m ρ c main_v20 (ix2 t a) = Spec.qAttn (fun t a => m ((c : Thread nD τ).loc main_arg3) (ix2 t a)) t a := by
  rw [show Gen.V2 m ρ c main_v20 = Gen.V1 m ρ c main_v20 from Gen.W2_of_ne m ρ c main_v20 (by decide)]
  exact Host.V1_qattn m ρ c t a

/-- The first kernel's attention, from the arguments. -/
theorem attnAt_V1 (c : Dev nD) (b : Fin 16) (a : Fin 5) (t : Fin 2048) :
    Arrays.attnAt (Gen.V1 m ρ) c b a t
      = Spec.attn (fun t d => m ((c : Thread nD τ).loc main_arg0) (ix4 (0 : Fin 3) b t d))
          (fun t d => m ((c : Thread nD τ).loc main_arg0) (ix4 (1 : Fin 3) b t d))
          (fun t => Spec.maskVal (Spec.keepBit (m ((c : Thread nD τ).loc main_arg1) (ix2 b t))))
          (fun a t => m ((c : Thread nD τ).loc main_arg2) (ix2 a t)) a t := by
  unfold Arrays.attnAt
  rw [show (fun (t : Fin 2048) (d : Fin 768) => Gen.V1 m ρ c main_v1 (ix3 b t d))
        = fun t d => m ((c : Thread nD τ).loc main_arg0) (ix4 (0 : Fin 3) b t d)
        from funext fun t => funext fun d => Host.V1_query m ρ c b t d,
    show (fun (t : Fin 2048) (d : Fin 768) => Gen.V1 m ρ c main_v3 (ix3 b t d))
        = fun t d => m ((c : Thread nD τ).loc main_arg0) (ix4 (1 : Fin 3) b t d)
        from funext fun t => funext fun d => Host.V1_key m ρ c b t d,
    show (fun (t : Fin 2048) => Gen.V1 m ρ c main_v9 (ix3 b t (0 : Fin 1)))
        = fun t => Spec.maskVal (Spec.keepBit (m ((c : Thread nD τ).loc main_arg1) (ix2 b t)))
        from funext fun t => Host.V1_mask m ρ c b t,
    Host.V1_bias1 m ρ c]

/-- The attention array the second kernel reads is the first kernel's, from the arguments. -/
theorem V2_attn (c : Dev nD) (b : Fin 16) (a : Fin 5) (t : Fin 2048) :
    Gen.V2 m ρ c main_v21 (ix3 b a t)
      = Spec.attn (fun t d => m ((c : Thread nD τ).loc main_arg0) (ix4 (0 : Fin 3) b t d))
          (fun t d => m ((c : Thread nD τ).loc main_arg0) (ix4 (1 : Fin 3) b t d))
          (fun t => Spec.maskVal (Spec.keepBit (m ((c : Thread nD τ).loc main_arg1) (ix2 b t))))
          (fun a t => m ((c : Thread nD τ).loc main_arg2) (ix2 a t)) a t := by
  rw [show Gen.V2 m ρ c main_v21 = (Gen.dat0 (Gen.V1 m ρ) c).arrAt 4 cfg0.N from Gen.W2_arr m ρ c 4,
    Arrays.attn_array (Gen.V1 m ρ) c b a t]
  exact attnAt_V1 m ρ c b a t

/-! ## The result -/

/-- The result buffer at the run's last boundary, at (b, t, d). -/
theorem result_apply (c : Dev nD) (b : Fin 16) (t : Fin 2048) (d : Fin 768) :
    Gen.W3 m ρ c (Proc.devRef .tc main_v22) (ix3 b t d)
      = Spec.out (fun t d => m ((c : Thread nD τ).loc main_arg0) (ix4 (0 : Fin 3) b t d))
          (fun t d => m ((c : Thread nD τ).loc main_arg0) (ix4 (1 : Fin 3) b t d))
          (fun t d => m ((c : Thread nD τ).loc main_arg0) (ix4 (2 : Fin 3) b t d))
          (fun t => Spec.maskVal (Spec.keepBit (m ((c : Thread nD τ).loc main_arg1) (ix2 b t))))
          (fun a t => m ((c : Thread nD τ).loc main_arg2) (ix2 a t))
          (fun t a => m ((c : Thread nD τ).loc main_arg3) (ix2 t a)) t d := by
  rw [show Gen.W3 m ρ c (Proc.devRef .tc main_v22) = (Gen.dat1 (Gen.V2 m ρ) c).arrAt 3 cfg1.N from Gen.W3_arr m ρ c 3,
    Arrays.out_array (Gen.V2 m ρ) c b t d]
  unfold Arrays.outAt Spec.out
  rw [show (fun (t : Fin 2048) (d : Fin 768) => Gen.V2 m ρ c main_v5 (ix3 b t d))
        = fun t d => m ((c : Thread nD τ).loc main_arg0) (ix4 (2 : Fin 3) b t d)
        from funext fun t => funext fun d => V2_value m ρ c b t d,
    show (fun (t : Fin 2048) (a : Fin 5) => Gen.V2 m ρ c main_v20 (ix2 t a))
        = Spec.qAttn (fun t a => m ((c : Thread nD τ).loc main_arg3) (ix2 t a))
        from funext fun t => funext fun a => V2_qattn m ρ c t a,
    show (fun (a : Fin 5) (t : Fin 2048) => Gen.V2 m ρ c main_v21 (ix3 b a t))
        = Spec.attn (fun t d => m ((c : Thread nD τ).loc main_arg0) (ix4 (0 : Fin 3) b t d))
            (fun t d => m ((c : Thread nD τ).loc main_arg0) (ix4 (1 : Fin 3) b t d))
            (fun t => Spec.maskVal (Spec.keepBit (m ((c : Thread nD τ).loc main_arg1) (ix2 b t))))
            (fun a t => m ((c : Thread nD τ).loc main_arg2) (ix2 a t))
        from funext fun a => funext fun t => V2_attn m ρ c b a t]

end Cert.KernelIdeal.Value

end
-- ==== Proof.lean ====
/-
  The kernel program against its reference, over the extended reals.

  The kernel program computes, per batch, the masked mean of the queries (a product with the 0/1 mask, a sum over the
  positions, a factor 2⁻¹¹), the agents' softmax attention over the keys, the agents' values, and the result
  ∑ₐ qattn t a · agent_v a d, where qattn is the softmax of a row of the second bias alone. The reference computes the
  same mean by a select and a quotient by 2048, the same attention and values, and for qattn the softmax of
  q·agent + b2 over the five agents. The query term q·agent is one finite number for all five agents (every query
  entry is finite under the precondition), and a softmax does not change when a finite constant is added to a row:
  so the two results agree entry by entry.
  Proof/Spec.lean states the mathematics and proves that law; Proof/RefValue.lean reads the reference's result at an
  entry; Proof/KBody0.lean and Proof/KBody1.lean read the two kernel bodies' stores at an entry; Proof/KArrays0.lean and
  Proof/KArrays1.lean pass from blocks to arrays; Proof/KHost.lean reads the kernel program's host operations;
  Proof/KValue.lean combines them; Proof/Finite.lean turns the precondition into "every entry is a real number".
  The three frames are the generated ones; the idealization rewrote nothing, so preserves has nothing to say.
-/
import proofs.«136177_j1838246003405_1_alg».proof.Defs
import proofs.«136177_j1838246003405_1_alg».proof.Proof.Gen.Kernel
import proofs.«136177_j1838246003405_1_alg».proof.Proof.Gen.Kernel.Frame
import proofs.«136177_j1838246003405_1_alg».proof.Proof.Gen.KernelIdeal
import proofs.«136177_j1838246003405_1_alg».proof.Proof.Gen.KernelIdeal.Frame
import proofs.«136177_j1838246003405_1_alg».proof.Proof.Gen.ReferenceIdeal
import proofs.«136177_j1838246003405_1_alg».proof.Proof.Gen.ReferenceIdeal.Run
import proofs.«136177_j1838246003405_1_alg».proof.Proof.Gen.ReferenceIdeal.Read
import proofs.«136177_j1838246003405_1_alg».proof.Proof.Gen.Pre_finite_inputs
import proofs.«136177_j1838246003405_1_alg».proof.Proof.Spec
import proofs.«136177_j1838246003405_1_alg».proof.Proof.Finite
import proofs.«136177_j1838246003405_1_alg».proof.Proof.RefValue
import proofs.«136177_j1838246003405_1_alg».proof.Proof.KRun
import proofs.«136177_j1838246003405_1_alg».proof.Proof.KValue
import Idealize.ShloMosaic.Lib.ValueIdx
import Idealize.ShloMosaic.Adequacy
import Idealize.ShloMosaic.Init

noncomputable section

namespace Cert.Proof

open Idealize.ShloMosaic Idealize.ShloMosaic.ValueIdx Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the same array: at (b, t, d) the reference's spelling of the batch computation equals the
    specification's, because batch b's query entries are finite. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W3 m ρ c (Proc.devRef .tc Cert.KernelIdeal.main_v22),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2.1, (hagree c).2.2.2]
  funext i
  obtain ⟨b, t, d, rfl⟩ : ∃ (b : Fin 16) (t : Fin 2048) (d : Fin 768), i = ix3 b t d := ⟨i 0, i 1, i 2, eq_ix3 i⟩
  refine (Cert.ReferenceIdeal.RefValue.result_apply _ _ _ _ b t d).trans ?_
  refine Eq.trans ?_ (Cert.KernelIdeal.Value.result_apply m ρ c b t d).symm
  exact Cert.Spec.outR_eq _ _ _ _ _ _ (fun t d => Cert.Finite.qkv_isReal _ _ _ _ (hpre c) _) t d

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
